-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128x50 : Shape := ⟨3, ![8192, 128, 50]⟩
abbrev S3x300 : Shape := ⟨2, ![3, 300]⟩
abbrev S3 : Shape := ⟨1, ![3]⟩
abbrev S8192x3 : Shape := ⟨2, ![8192, 3]⟩
abbrev S8192 : Shape := ⟨1, ![8192]⟩
abbrev S_ : Shape := ⟨0, ![]⟩

class Facts : Prop where
  bcast_S_S8192x128x50 : S_.BroadcastsInDim S8192x128x50 (![] : Fin 0 → Fin S8192x128x50.rank)
  reducesTo_S8192x128x50_S_d0_1_2 : S8192x128x50.ReducesTo [0, 1, 2] S_
  h_S_ : 0 < S_.numel
  bcast_S_S3x300 : S_.BroadcastsInDim S3x300 (![] : Fin 0 → Fin S3x300.rank)
  reducesTo_S3x300_S_d0_1 : S3x300.ReducesTo [0, 1] S_
  bcast_S_S3 : S_.BroadcastsInDim S3 (![] : Fin 0 → Fin S3.rank)
  reducesTo_S3_S_d0 : S3.ReducesTo [0] S_
  bcast_S_S8192x3 : S_.BroadcastsInDim S8192x3 (![] : Fin 0 → Fin S8192x3.rank)
  reducesTo_S8192x3_S_d0_1 : S8192x3.ReducesTo [0, 1] S_
  bcast_S_S8192 : S_.BroadcastsInDim S8192 (![] : Fin 0 → Fin S8192.rank)
  reducesTo_S8192_S_d0 : S8192.ReducesTo [0] S_

variable [Facts]

def fn_part2 {F : FTy → Type} [FloatOps F] (main_v30 : IVec S_ 1) (main_v32 : IVec S8192x3 1) : IVec S_ 1 :=
  let main_c_13 : IVec S_ 1 := constantI S_ 1 1#1
  let main_v33 : IVec S_ 1 := (fun x v => Host.reduce IntOp.andi x v reducesTo_S8192x3_S_d0_1 h_S_) main_v32 main_c_13
  let main_v34 : IVec S_ 1 := andi main_v30 main_v33
  main_v34

def fn_part1 {F : FTy → Type} [FloatOps F] (main_arg4 : IVec S8192 32) (main_arg5 : IVec S8192x3 32) (main_v13 : IVec S_ 1) (main_v16 : IVec S8192x3 1) : IVec S_ 1 :=
  let main_c_5 : IVec S_ 1 := constantI S_ 1 1#1
  let main_v17 : IVec S_ 1 := (fun x v => Host.reduce IntOp.andi x v reducesTo_S8192x3_S_d0_1 h_S_) main_v16 main_c_5
  let main_v18 : IVec S_ 1 := andi main_v13 main_v17
  let main_c_6 : IVec S_ 32 := constantI S_ 32 0#32
  let main_v19 : IVec S8192 32 := broadcastInDim S8192 ![] bcast_S_S8192 main_c_6
  let main_v20 : IVec S8192 1 := cmpi .sge main_arg4 main_v19
  let main_c_7 : IVec S_ 1 := constantI S_ 1 1#1
  let main_v21 : IVec S_ 1 := (fun x v => Host.reduce IntOp.andi x v reducesTo_S8192_S_d0 h_S_) main_v20 main_c_7
  let main_v22 : IVec S_ 1 := andi main_v18 main_v21
  let main_c_8 : IVec S_ 32 := constantI S_ 32 125#32
  let main_v23 : IVec S8192 32 := broadcastInDim S8192 ![] bcast_S_S8192 main_c_8
  let main_v24 : IVec S8192 1 := cmpi .sle main_arg4 main_v23
  let main_c_9 : IVec S_ 1 := constantI S_ 1 1#1
  let main_v25 : IVec S_ 1 := (fun x v => Host.reduce IntOp.andi x v reducesTo_S8192_S_d0 h_S_) main_v24 main_c_9
  let main_v26 : IVec S_ 1 := andi main_v22 main_v25
  let main_c_10 : IVec S_ 32 := constantI S_ 32 0#32
  let main_v27 : IVec S8192x3 32 := broadcastInDim S8192x3 ![] bcast_S_S8192x3 main_c_10
  let main_v28 : IVec S8192x3 1 := cmpi .sge main_arg5 main_v27
  let main_c_11 : IVec S_ 1 := constantI S_ 1 1#1
  let main_v29 : IVec S_ 1 := (fun x v => Host.reduce IntOp.andi x v reducesTo_S8192x3_S_d0_1 h_S_) main_v28 main_c_11
  let main_v30 : IVec S_ 1 := andi main_v26 main_v29
  let main_c_12 : IVec S_ 32 := constantI S_ 32 127#32
  let main_v31 : IVec S8192x3 32 := broadcastInDim S8192x3 ![] bcast_S_S8192x3 main_c_12
  let main_v32 : IVec S8192x3 1 := cmpi .sle main_arg5 main_v31
  fn_part2 (F := F) main_v30 main_v32

def fn {F : FTy → Type} [FloatOps F] (main_arg0 : FVec F S8192x128x50 .f32) (main_arg1 : FVec F S3x300 .f32) (main_arg2 : FVec F S3 .f32) (main_arg3 : FVec F S8192x3 .f32) (main_arg4 : IVec S8192 32) (main_arg5 : IVec S8192x3 32) : IVec S_ 1 :=
  let main_v0 : FVec F S8192x128x50 .f32 := Host.absf main_arg0
  let main_cst : FVec F S_ .f32 := constant S_ .f32 0x7F800000#32
  let main_v1 : FVec F S8192x128x50 .f32 := broadcastInDim S8192x128x50 ![] bcast_S_S8192x128x50 main_cst
  let main_v2 : IVec S8192x128x50 1 := cmpf .olt main_v0 main_v1
  let main_c : IVec S_ 1 := constantI S_ 1 1#1
  let main_v3 : IVec S_ 1 := (fun x v => Host.reduce IntOp.andi x v reducesTo_S8192x128x50_S_d0_1_2 h_S_) main_v2 main_c
  let main_v4 : FVec F S3x300 .f32 := Host.absf main_arg1
  let main_cst_0 : FVec F S_ .f32 := constant S_ .f32 0x7F800000#32
  let main_v5 : FVec F S3x300 .f32 := broadcastInDim S3x300 ![] bcast_S_S3x300 main_cst_0
  let main_v6 : IVec S3x300 1 := cmpf .olt main_v4 main_v5
  let main_c_1 : IVec S_ 1 := constantI S_ 1 1#1
  let main_v7 : IVec S_ 1 := (fun x v => Host.reduce IntOp.andi x v reducesTo_S3x300_S_d0_1 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S8192x3 .f32 := Host.absf main_arg3
  let main_cst_4 : FVec F S_ .f32 := constant S_ .f32 0x7F800000#32
  let main_v15 : FVec F S8192x3 .f32 := broadcastInDim S8192x3 ![] bcast_S_S8192x3 main_cst_4
  let main_v16 : IVec S8192x3 1 := cmpf .olt main_v14 main_v15
  fn_part1 (F := F) main_arg4 main_arg5 main_v13 main_v16
-- ==== Kernel.lean ====
abbrev S8192x128x50 : Shape := ⟨3, ![8192, 128, 50]⟩
abbrev S3x300 : Shape := ⟨2, ![3, 300]⟩
abbrev S3 : Shape := ⟨1, ![3]⟩
abbrev S8192x3 : Shape := ⟨2, ![8192, 3]⟩
abbrev S8192 : Shape := ⟨1, ![8192]⟩
abbrev S300x3 : Shape := ⟨2, ![300, 3]⟩
abbrev S6x50x3 : Shape := ⟨3, ![6, 50, 3]⟩
abbrev S256x128x50 : Shape := ⟨3, ![256, 128, 50]⟩
abbrev S256 : Shape := ⟨1, ![256]⟩
abbrev S256x3 : Shape := ⟨2, ![256, 3]⟩
abbrev S256x1 : Shape := ⟨2, ![256, 1]⟩
abbrev S256x6 : Shape := ⟨2, ![256, 6]⟩
abbrev S256x6x128 : Shape := ⟨3, ![256, 6, 128]⟩
abbrev S256x6x1 : Shape := ⟨3, ![256, 6, 1]⟩
abbrev S256x6x50 : Shape := ⟨3, ![256, 6, 50]⟩
abbrev S1x3 : Shape := ⟨2, ![1, 3]⟩
abbrev S256x1x50 : Shape := ⟨3, ![256, 1, 50]⟩
abbrev S256x50 : Shape := ⟨2, ![256, 50]⟩
abbrev S1x50x3 : Shape := ⟨3, ![1, 50, 3]⟩
abbrev S50x3 : Shape := ⟨2, ![50, 3]⟩

abbrev nBuf : Space → Nat
  | .hbm => 9
  | .vmem => 12
  | .smem => 0
  | _ => 0

abbrev bufTy : (tb : Table) → Fin (tcTables nBuf tb) → BufTy
  | .hbm, ⟨0, _⟩ => ⟨S8192x128x50, .f32⟩
  | .hbm, ⟨1, _⟩ => ⟨S3x300, .f32⟩
  | .hbm, ⟨2, _⟩ => ⟨S3, .f32⟩
  | .hbm, ⟨3, _⟩ => ⟨S8192x3, .f32⟩
  | .hbm, ⟨4, _⟩ => ⟨S8192, .i32⟩
  | .hbm, ⟨5, _⟩ => ⟨S8192x3, .i32⟩
  | .hbm, ⟨6, _⟩ => ⟨S300x3, .f32⟩
  | .hbm, ⟨7, _⟩ => ⟨S6x50x3, .f32⟩
  | .hbm, ⟨8, _⟩ => ⟨S8192x3, .f32⟩
  | .local _ .vmem, ⟨0, _⟩ => ⟨S256x128x50, .f32⟩
  | .local _ .vmem, ⟨1, _⟩ => ⟨S256x128x50, .f32⟩
  | .local _ .vmem, ⟨2, _⟩ => ⟨S256, .i32⟩
  | .local _ .vmem, ⟨3, _⟩ => ⟨S256, .i32⟩
  | .local _ .vmem, ⟨4, _⟩ => ⟨S256x3, .i32⟩
  | .local _ .vmem, ⟨5, _⟩ => ⟨S256x3, .i32⟩
  | .local _ .vmem, ⟨6, _⟩ => ⟨S256x3, .f32⟩
  | .local _ .vmem, ⟨7, _⟩ => ⟨S256x3, .f32⟩
  | .local _ .vmem, ⟨8, _⟩ => ⟨S6x50x3, .f32⟩
  | .local _ .vmem, ⟨9, _⟩ => ⟨S3, .f32⟩
  | .local _ .vmem, ⟨10, _⟩ => ⟨S256x3, .f32⟩
  | .local _ .vmem, ⟨11, _⟩ => ⟨S256x3, .f32⟩
  | _, _ => ⟨S8192x128x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x50x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S3x300_S300x3_1_0 : S3x300.Transposes [1, 0] S300x3
  shapeCasts_S300x3_S6x50x3 : S300x3.ShapeCasts S6x50x3
  inb_S256x128x50_S256x128x50_0_0_0 : ∀ a, (![0, 0, 0] : Fin 3 → Nat) a + S256x128x50.size a ≤ S256x128x50.size a
  h_S256x128x50 : 0 < S256x128x50.numel
  inb_S256_S256_0 : ∀ a, (![0] : Fin 1 → Nat) a + S256.size a ≤ S256.size a
  h_S256 : 0 < S256.numel
  inb_S256x3_S256x3_0_0 : ∀ a, (![0, 0] : Fin 2 → Nat) a + S256x3.size a ≤ S256x3.size a
  h_S256x3 : 0 < S256x3.numel
  shapeCasts_S256_S256x1 : S256.ShapeCasts S256x1
  concatenates_S256x1_S256x1_S256x1_S256x3_S256x6_d1 : Shape.Concatenates [S256x1, S256x1, S256x1, S256x3] S256x6 1
  iota_S256x6x128_d2_w32 : S256x6x128.Iotas .tc 32 [2]
  shapeCasts_S256x6_S256x6x1 : S256x6.ShapeCasts S256x6x1
  broadcasts_S256x6x1_S256x6x128 : S256x6x1.Broadcasts S256x6x128
  natLt_1_32 : 1 < 32
  inb_S3_S3_0 : ∀ a, (![0] : Fin 1 → Nat) a + S3.size a ≤ S3.size a
  h_S3 : 0 < S3.numel
  shapeCasts_S3_S1x3 : S3.ShapeCasts S1x3
  broadcasts_S1x3_S256x3 : S1x3.Broadcasts S256x3
  inb_S6x50x3_S6x50x3_0_0_0 : ∀ a, (![0, 0, 0] : Fin 3 → Nat) a + S6x50x3.size a ≤ S6x50x3.size a
  h_S6x50x3 : 0 < S6x50x3.numel
  shapeCasts_S6x50x3_S6x50x3 : S6x50x3.ShapeCasts S6x50x3
  bitsLt_bf16_f32 : FTy.bits .bf16 < FTy.bits .f32
  slices_S256x6x50_o0_0_0_S256x1x50 : S256x6x50.Slices ![0, 0, 0] S256x1x50
  shapeCasts_S256x1x50_S256x50 : S256x1x50.ShapeCasts S256x50
  slices_S6x50x3_o0_0_0_S1x50x3 : S6x50x3.Slices ![0, 0, 0] S1x50x3
  shapeCasts_S1x50x3_S50x3 : S1x50x3.ShapeCasts S50x3
  slices_S256x6x50_o0_1_0_S256x1x50 : S256x6x50.Slices ![0, 1, 0] S256x1x50
  slices_S6x50x3_o1_0_0_S1x50x3 : S6x50x3.Slices ![1, 0, 0] S1x50x3
  slices_S256x6x50_o0_2_0_S256x1x50 : S256x6x50.Slices ![0, 2, 0] S256x1x50
  slices_S6x50x3_o2_0_0_S1x50x3 : S6x50x3.Slices ![2, 0, 0] S1x50x3
  slices_S256x6x50_o0_3_0_S256x1x50 : S256x6x50.Slices ![0, 3, 0] S256x1x50
  slices_S6x50x3_o3_0_0_S1x50x3 : S6x50x3.Slices ![3, 0, 0] S1x50x3
  slices_S256x6x50_o0_4_0_S256x1x50 : S256x6x50.Slices ![0, 4, 0] S256x1x50
  slices_S6x50x3_o4_0_0_S1x50x3 : S6x50x3.Slices ![4, 0, 0] S1x50x3
  slices_S256x6x50_o0_5_0_S256x1x50 : S256x6x50.Slices ![0, 5, 0] S256x1x50
  slices_S6x50x3_o5_0_0_S1x50x3 : S6x50x3.Slices ![5, 0, 0] S1x50x3
  dot_S256x6x128_S256x128x50_S256x6x50_2_1_1_2_0_0_wf : DotDims.WF S256x6x128 S256x128x50 S256x6x50 [2] [1] [1] [2] [0] [0]
  dot_S256x50_S50x3_S256x3_1_0_0_1_n_n_wf : DotDims.WF S256x50 S50x3 S256x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128x50.size a ≤ S8192x128x50.size a
  hwx0_0 : ∀ i : grid0.Coords, EltTy.bits .f32 = 32 ∨ (Rect.block (s := S8192x128x50) S256x128x50.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S8192.size a
  hwx0_1 : ∀ i : grid0.Coords, EltTy.bits .i32 = 32 ∨ (Rect.block (s := S8192) S256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x3.size a ≤ S8192x3.size a
  hwx0_2 : ∀ i : grid0.Coords, EltTy.bits .i32 = 32 ∨ (Rect.block (s := S8192x3) S256x3.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x3.size a ≤ S8192x3.size a
  hwx0_3 : ∀ i : grid0.Coords, EltTy.bits .f32 = 32 ∨ (Rect.block (s := S8192x3) S256x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x50x3.size a ≤ S6x50x3.size a
  hwx0_4 : ∀ i : grid0.Coords, EltTy.bits .f32 = 32 ∨ (Rect.block (s := S6x50x3) S6x50x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3.size a ≤ S3.size a
  hwx0_5 : ∀ i : grid0.Coords, EltTy.bits .f32 = 32 ∨ (Rect.block (s := S3) S3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x3.size a ≤ S8192x3.size a
  hwx0_6 : ∀ i : grid0.Coords, EltTy.bits .f32 = 32 ∨ (Rect.block (s := S8192x3) S256x3.size (cc0_transform_6 i) (hinb0_6 i)).WholeWords (EltTy.packing .f32)

variable [Facts₀]

def dot_S256x6x128_S256x128x50_S256x6x50_2_1_1_2_0_0 : DotDims S256x6x128 S256x128x50 S256x6x50 where
  lhsContracting := [2]
  rhsContracting := [1]
  lhsNonContracting := [1]
  rhsNonContracting := [2]
  lhsBatch := [0]
  rhsBatch := [0]
  wf := dot_S256x6x128_S256x128x50_S256x6x50_2_1_1_2_0_0_wf
def dot_S256x50_S50x3_S256x3_1_0_0_1_n_n : DotDims S256x50 S50x3 S256x3 where
  lhsContracting := [1]
  rhsContracting := [0]
  lhsNonContracting := [0]
  rhsNonContracting := [1]
  lhsBatch := []
  rhsBatch := []
  wf := dot_S256x50_S50x3_S256x3_1_0_0_1_n_n_wf

abbrev win0_0 : Pipeline.Window sig grid0 :=
  Pipeline.Window.ofSpec (Memref.whole main_arg0) S256x128x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S6x50x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S256x3.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x128x50 : Shape := ⟨3, ![8192, 128, 50]⟩
abbrev S3x300 : Shape := ⟨2, ![3, 300]⟩
abbrev S3 : Shape := ⟨1, ![3]⟩
abbrev S8192x3 : Shape := ⟨2, ![8192, 3]⟩
abbrev S8192 : Shape := ⟨1, ![8192]⟩
abbrev S8192x1 : Shape := ⟨2, ![8192, 1]⟩
abbrev S1x3 : Shape := ⟨2, ![1, 3]⟩
abbrev S8192x3x1 : Shape := ⟨3, ![8192, 3, 1]⟩
abbrev S_ : Shape := ⟨0, ![]⟩
abbrev S1 : Shape := ⟨1, ![1]⟩
abbrev S1x1x1 : Shape := ⟨3, ![1, 1, 1]⟩
abbrev S8192x3x50 : Shape := ⟨3, ![8192, 3, 50]⟩
abbrev S8192x150 : Shape := ⟨2, ![8192, 150]⟩
abbrev S8192x300 : Shape := ⟨2, ![8192, 300]⟩
abbrev S300x3 : Shape := ⟨2, ![300, 3]⟩

abbrev nBuf : Space → Nat
  | .hbm => 76
  | .vmem => 0
  | .smem => 0
  | _ => 0

abbrev bufTy : (tb : Table) → Fin (tcTables nBuf tb) → BufTy
  | .hbm, ⟨0, _⟩ => ⟨S8192x128x50, .f32⟩
  | .hbm, ⟨1, _⟩ => ⟨S3x300, .f32⟩
  | .hbm, ⟨2, _⟩ => ⟨S3, .f32⟩
  | .hbm, ⟨3, _⟩ => ⟨S8192x3, .f32⟩
  | .hbm, ⟨4, _⟩ => ⟨S8192, .i32⟩
  | .hbm, ⟨5, _⟩ => ⟨S8192x3, .i32⟩
  | .hbm, ⟨6, _⟩ => ⟨S8192x1, .i32⟩
  | .hbm, ⟨7, _⟩ => ⟨S3, .i32⟩
  | .hbm, ⟨8, _⟩ => ⟨S1x3, .i32⟩
  | .hbm, ⟨9, _⟩ => ⟨S8192x3, .i32⟩
  | .hbm, ⟨10, _⟩ => ⟨S8192x3, .i32⟩
  | .hbm, ⟨11, _⟩ => ⟨S8192x3, .i32⟩
  | .hbm, ⟨12, _⟩ => ⟨S8192x3x1, .i32⟩
  | .hbm, ⟨13, _⟩ => ⟨S_, .i32⟩
  | .hbm, ⟨14, _⟩ => ⟨S8192x3x1, .i32⟩
  | .hbm, ⟨15, _⟩ => ⟨S8192x3x1, .i1⟩
  | .hbm, ⟨16, _⟩ => ⟨S_, .i32⟩
  | .hbm, ⟨17, _⟩ => ⟨S8192x3x1, .i32⟩
  | .hbm, ⟨18, _⟩ => ⟨S8192x3x1, .i32⟩
  | .hbm, ⟨19, _⟩ => ⟨S8192x3x1, .i32⟩
  | .hbm, ⟨20, _⟩ => ⟨S1, .i32⟩
  | .hbm, ⟨21, _⟩ => ⟨S_, .i32⟩
  | .hbm, ⟨22, _⟩ => ⟨S8192x3x1, .i32⟩
  | .hbm, ⟨23, _⟩ => ⟨S8192x3x1, .i1⟩
  | .hbm, ⟨24, _⟩ => ⟨S1x1x1, .i32⟩
  | .hbm, ⟨25, _⟩ => ⟨S8192x3x1, .i32⟩
  | .hbm, ⟨26, _⟩ => ⟨S8192x3x1, .i1⟩
  | .hbm, ⟨27, _⟩ => ⟨S8192x3x1, .i1⟩
  | .hbm, ⟨28, _⟩ => ⟨S_, .i1⟩
  | .hbm, ⟨29, _⟩ => ⟨S8192x3, .i1⟩
  | .hbm, ⟨30, _⟩ => ⟨S8192x3x50, .f32⟩
  | .hbm, ⟨31, _⟩ => ⟨S8192x3x50, .i1⟩
  | .hbm, ⟨32, _⟩ => ⟨S_, .f32⟩
  | .hbm, ⟨33, _⟩ => ⟨S8192x3x50, .f32⟩
  | .hbm, ⟨34, _⟩ => ⟨S8192x3x50, .f32⟩
  | .hbm, ⟨35, _⟩ => ⟨S8192x3x1, .i32⟩
  | .hbm, ⟨36, _⟩ => ⟨S_, .i32⟩
  | .hbm, ⟨37, _⟩ => ⟨S8192x3x1, .i32⟩
  | .hbm, ⟨38, _⟩ => ⟨S8192x3x1, .i1⟩
  | .hbm, ⟨39, _⟩ => ⟨S_, .i32⟩
  | .hbm, ⟨40, _⟩ => ⟨S8192x3x1, .i32⟩
  | .hbm, ⟨41, _⟩ => ⟨S8192x3x1, .i32⟩
  | .hbm, ⟨42, _⟩ => ⟨S8192x3x1, .i32⟩
  | .hbm, ⟨43, _⟩ => ⟨S1, .i32⟩
  | .hbm, ⟨44, _⟩ => ⟨S_, .i32⟩
  | .hbm, ⟨45, _⟩ => ⟨S8192x3x1, .i32⟩
  | .hbm, ⟨46, _⟩ => ⟨S8192x3x1, .i1⟩
  | .hbm, ⟨47, _⟩ => ⟨S1x1x1, .i32⟩
  | .hbm, ⟨48, _⟩ => ⟨S8192x3x1, .i32⟩
  | .hbm, ⟨49, _⟩ => ⟨S8192x3x1, .i1⟩
  | .hbm, ⟨50, _⟩ => ⟨S8192x3x1, .i1⟩
  | .hbm, ⟨51, _⟩ => ⟨S_, .i1⟩
  | .hbm, ⟨52, _⟩ => ⟨S8192x3, .i1⟩
  | .hbm, ⟨53, _⟩ => ⟨S8192x3x50, .f32⟩
  | .hbm, ⟨54, _⟩ => ⟨S8192x3x50, .i1⟩
  | .hbm, ⟨55, _⟩ => ⟨S_, .f32⟩
  | .hbm, ⟨56, _⟩ => ⟨S8192x3x50, .f32⟩
  | .hbm, ⟨57, _⟩ => ⟨S8192x3x50, .f32⟩
  | .hbm, ⟨58, _⟩ => ⟨S8192x150, .f32⟩
  | .hbm, ⟨59, _⟩ => ⟨S8192x150, .f32⟩
  | .hbm, ⟨60, _⟩ => ⟨S8192x300, .f32⟩
  | .hbm, ⟨61, _⟩ => ⟨S300x3, .f32⟩
  | .hbm, ⟨62, _⟩ => ⟨S8192x3, .f32⟩
  | .hbm, ⟨63, _⟩ => ⟨S1x3, .f32⟩
  | .hbm, ⟨64, _⟩ => ⟨S8192x3, .f32⟩
  | .hbm, ⟨65, _⟩ => ⟨S8192x3, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S8192x3, .f32⟩
  | .hbm, ⟨70, _⟩ => ⟨S8192x3, .f32⟩
  | .hbm, ⟨71, _⟩ => ⟨S_, .f32⟩
  | .hbm, ⟨72, _⟩ => ⟨S8192x3, .f32⟩
  | .hbm, ⟨73, _⟩ => ⟨S8192x3, .f32⟩
  | .hbm, ⟨74, _⟩ => ⟨S8192x3, .f32⟩
  | .hbm, ⟨75, _⟩ => ⟨S8192x3, .f32⟩
  | _, _ => ⟨S8192x128x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_c_2 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_c_3 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_cst : Ref sig .tc := ⟨.hbm, 32, rfl⟩
abbrev main_call0_v14 : Ref sig .tc := ⟨.hbm, 33, rfl⟩
abbrev main_v7 : Ref sig .tc := ⟨.hbm, 34, rfl⟩
abbrev main_v8 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_c_2 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_c_3 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_cst : Ref sig .tc := ⟨.hbm, 55, rfl⟩
abbrev main_call1_v14 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_cst : Ref sig .tc := ⟨.hbm, 66, rfl⟩
abbrev main_cst_0 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S3_S1x3_1 : S3.BroadcastsInDim S1x3 (![1] : Fin 1 → Fin S1x3.rank)
  bcast_S8192x1_S8192x3_0_1 : S8192x1.BroadcastsInDim S8192x3 (![0, 1] : Fin 2 → Fin S8192x3.rank)
  bcast_S1x3_S8192x3_0_1 : S1x3.BroadcastsInDim S8192x3 (![0, 1] : Fin 2 → Fin S8192x3.rank)
  bcast_S8192x3_S8192x3x1_0_1 : S8192x3.BroadcastsInDim S8192x3x1 (![0, 1] : Fin 2 → Fin S8192x3x1.rank)
  bcast_S_S8192x3x1 : S_.BroadcastsInDim S8192x3x1 (![] : Fin 0 → Fin S8192x3x1.rank)
  bcast_S1_S1x1x1_2 : S1.BroadcastsInDim S1x1x1 (![2] : Fin 1 → Fin S1x1x1.rank)
  bcast_S1x1x1_S8192x3x1_0_1_2 : S1x1x1.BroadcastsInDim S8192x3x1 (![0, 1, 2] : Fin 3 → Fin S8192x3x1.rank)
  reducesTo_S8192x3x1_S8192x3_d2 : S8192x3x1.ReducesTo [2] S8192x3
  h_S_ : 0 < S_.numel
  bcast_S8192x3_S8192x3x50_0_1 : S8192x3.BroadcastsInDim S8192x3x50 (![0, 1] : Fin 2 → Fin S8192x3x50.rank)
  bcast_S_S8192x3x50 : S_.BroadcastsInDim S8192x3x50 (![] : Fin 0 → Fin S8192x3x50.rank)
  shapeCasts_S8192x3x50_S8192x150 : S8192x3x50.ShapeCasts S8192x150
  concatenates_S8192x150_S8192x150_S8192x300_d1 : Shape.Concatenates [S8192x150, S8192x150] S8192x300 1
  transposes_S3x300_S300x3_1_0 : S3x300.Transposes [1, 0] S300x3
  bcast_S_S8192x3 : S_.BroadcastsInDim S8192x3 (![] : Fin 0 → Fin S8192x3.rank)
  gather_S8192x128x50_S8192x3x1_S8192x3x50_2_1_0_0_1_2_1150_wf : GatherDims.WF S8192x128x50 S8192x3x1 S8192x3x50 [2] [1] [0] [1] [0] 2 ![1, 1, 50]
  dot_S8192x300_S300x3_S8192x3_1_0_0_1_n_n_wf : DotDims.WF S8192x300 S300x3 S8192x3 [1] [0] [0] [1] [] []

variable [Facts₀]

def gather_S8192x128x50_S8192x3x1_S8192x3x50_2_1_0_0_1_2_1150 : GatherDims S8192x128x50 S8192x3x1 S8192x3x50 where
  offsetDims := [2]
  collapsedSliceDims := [1]
  operandBatchingDims := [0]
  startIndicesBatchingDims := [0]
  startIndexMap := [1]
  indexVectorDim := 2
  sliceSizes := ![1, 1, 50]
  wf := gather_S8192x128x50_S8192x3x1_S8192x3x50_2_1_0_0_1_2_1150_wf
def dot_S8192x300_S300x3_S8192x3_1_0_0_1_n_n : DotDims S8192x300 S300x3 S8192x3 where
  lhsContracting := [1]
  rhsContracting := [0]
  lhsNonContracting := [0]
  rhsNonContracting := [1]
  lhsBatch := []
  rhsBatch := []
  wf := dot_S8192x300_S300x3_S8192x3_1_0_0_1_n_n_wf

class Facts : Prop extends Facts₀ where

variable [Facts]
-- ==== Proof.Spec.lean ====
/-
  The score of one parser state, as one function of the argument arrays.

  For a state `b` six rows of its buffer are selected: the rows at positions `buffer_index b + k` for `k = 0, 1, 2`
  (32-bit wrapping sum) and at `stack_indexes b s` for `s = 0, 1, 2`. A position word `w` is read as a signed integer
  and clamped into the rows `[0, 127]` (`rowOf`). The logit of action `j` is the bias plus the sum, over the six selected
  rows `k` and the 50 hidden columns `h`, of the row's entry times the weight `W j (50 k + h)`; the score is
  `exp (min 10 (max (-10^6) logit))` times the action's legality entry.

  Both programs compute this function: the kernel selects a row by a 0/1 matrix product and clamps exactly as `rowOf`;
  the reference selects it by a gather whose positions, for positions already in `[0, 127]` (`InRange`), are not moved by its
  wrap-around of negatives and pass its range test.
-/
import Idealize.ShloMosaic.PureOps.Ideal
import Idealize.ShloMosaic.Lib.ValueIdx

noncomputable section

namespace Cert.ParserScore

open Idealize.ShloMosaic Idealize.ShloMosaic.ValueIdx

/-- The position word of slot `k` of state `b`: `bi b + k` (wrapping) for the three buffer slots, `si b (k - 3)` for
    the three stack slots. Generic in the number `n` of states (the whole batch, or one block of it). -/
def word6 {n : Nat} (bi : IVec ⟨1, ![n]⟩ 32) (si : IVec ⟨2, ![n, 3]⟩ 32) (b : Fin n) (k : Fin 6) : BitVec 32 :=
  if h : k.val < 3 then bi (ix1 b) + BitVec.ofNat 32 k.val else si (ix2 b ⟨k.val - 3, by omega⟩)

/-- The buffer row a position word selects: the word read signed, clamped into `[0, 127]`. -/
def rowOf (w : BitVec 32) : Fin 128 := ⟨min w.toInt.toNat 127, by omega⟩

/-- The column of the weight matrix that slot `k`, hidden column `h` meets: `50 k + h`. -/
def wcol (k : Fin 6) (h : Fin 50) : Fin 300 := ⟨50 * k.val + h.val, by omega⟩

/-- The clip's lower and upper bounds, as the two programs print them. -/
def lo : EReal := Ideal.ofBits .f32 0xC9742400#32
def hi : EReal := Ideal.ofBits .f32 0x41200000#32

/-- The score from the six selected rows `r k h`, the weights `w k h` met by them, the bias and the legality entry. -/
def score (r w : Fin 6 → Fin 50 → EReal) (bias legal : EReal) : EReal :=
  Ideal.exp (min hi (max lo (bias + ∑ k : Fin 6, ∑ h : Fin 50, r k h * w k h))) * legal

/-- THE RESULT, index by index, as one function of the six argument arrays. -/
def G (buf : (⟨3, ![8192, 128, 50]⟩ : Shape).Idx → EReal) (W : (⟨2, ![3, 300]⟩ : Shape).Idx → EReal)
    (bias : (⟨1, ![3]⟩ : Shape).Idx → EReal) (legal : (⟨2, ![8192, 3]⟩ : Shape).Idx → EReal)
    (bi : IVec ⟨1, ![8192]⟩ 32) (si : IVec ⟨2, ![8192, 3]⟩ 32) : (⟨2, ![8192, 3]⟩ : Shape).Idx → EReal :=
  fun i => score (fun k h => buf (ix3 (i 0) (rowOf (word6 bi si (i 0) k)) h)) (fun k h => W (ix2 (i 1) (wcol k h)))
    (bias (ix1 (i 1))) (legal i)

/-- Every position is a row of the buffer: `0 ≤ bi b ≤ 125` (so that `bi b + 2 ≤ 127`) and `0 ≤ si b s ≤ 127`, read signed. -/
def InRange (bi : IVec ⟨1, ![8192]⟩ 32) (si : IVec ⟨2, ![8192, 3]⟩ 32) : Prop :=
  (∀ b : Fin 8192, 0 ≤ (bi (ix1 b)).toInt ∧ (bi (ix1 b)).toInt ≤ 125) ∧
  (∀ (b : Fin 8192) (s : Fin 3), 0 ≤ (si (ix2 b s)).toInt ∧ (si (ix2 b s)).toInt ≤ 127)

end Cert.ParserScore

end
-- ==== Proof.PreDecode.lean ====
/-
  From the precondition to the positions' ranges: the printed predicate is a conjunction of eight `all` tests; its last four
  say that every buffer position is in `[0, 125]` and every stack position in `[0, 127]`, read signed.
-/
import proofs.«425299_j56281251446796_3_alg».proof.Pre_finite_inputs
import proofs.«425299_j56281251446796_3_alg».proof.Proof.Spec
import Idealize.ShloMosaic.Lib.ReduceAll
import Idealize.ShloMosaic.Lib.StableHlo.Predicate

noncomputable section

namespace Cert.ParserScore

open Idealize.ShloMosaic Idealize.ShloMosaic.ValueIdx

/-- The shape of a scalar has one index only. -/
instance subsingleton_scalarIdx : Subsingleton Cert.Pre_finite_inputs.S_.Idx :=
  ⟨fun a b => funext fun d => d.elim0⟩

/-- If the precondition's predicate answers 1 on the six arrays, every position is a row of the buffer. -/
theorem inRange_of_pre {F : FTy → Type} [FloatOps F] [Cert.Pre_finite_inputs.Facts]
    (x0 : FVec F Cert.Pre_finite_inputs.S8192x128x50 .f32) (x1 : FVec F Cert.Pre_finite_inputs.S3x300 .f32)
    (x2 : FVec F Cert.Pre_finite_inputs.S3 .f32) (x3 : FVec F Cert.Pre_finite_inputs.S8192x3 .f32)
    (bi : IVec Cert.Pre_finite_inputs.S8192 32) (si : IVec Cert.Pre_finite_inputs.S8192x3 32)
    (h : Cert.Pre_finite_inputs.fn (F := F) x0 x1 x2 x3 bi si = fun _ => 1#1) : InRange bi si := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨_, e1⟩, e2⟩, e3⟩, e4⟩ := e
  refine ⟨fun b => ⟨?_, ?_⟩, fun b s => ⟨?_, ?_⟩⟩
  · have t : IntOp.cmpi .sge (bi (ix1 b)) 0#32 = 1#1 := Host.reduce_andi_all _ _ _ _ _ e1 (ix1 b)
    exact IntOp.cmpi_sge.1 t
  · have t : IntOp.cmpi .sle (bi (ix1 b)) 125#32 = 1#1 := Host.reduce_andi_all _ _ _ _ _ e2 (ix1 b)
    exact IntOp.cmpi_sle.1 t
  · have t : IntOp.cmpi .sge (si (ix2 b s)) 0#32 = 1#1 := Host.reduce_andi_all _ _ _ _ _ e3 (ix2 b s)
    exact IntOp.cmpi_sge.1 t
  · have t : IntOp.cmpi .sle (si (ix2 b s)) 127#32 = 1#1 := Host.reduce_andi_all _ _ _ _ _ e4 (ix2 b s)
    exact IntOp.cmpi_sle.1 t

end Cert.ParserScore

end
-- ==== Proof.ScoreAlgebra.lean ====
/-
  Three facts about finite sums of extended reals that join the two programs' arrangements of the logit.

  * A sum against a 0/1 row with its single 1 at `r` picks the entry at `r` (`0 * x = 0` and `1 * x = x` hold for every
    extended real, infinite ones included, so nothing is asked of the entries).
  * A sum over the 300 weight columns is the double sum over the six slots and the 50 hidden columns, column `50 k + h`.
  * The bias plus the six slots' sum is the bias with the six terms added one after the other.
-/
import proofs.«425299_j56281251446796_3_alg».proof.Proof.Spec
import Mathlib.Algebra.BigOperators.Fin
import Mathlib.Algebra.BigOperators.Group.Finset.Sigma

noncomputable section

namespace Cert.ParserScore

/-- A sum against the indicator row of `r` is the entry at `r`. -/
theorem sum_indicator_mul {n : Nat} (r : Fin n) (o f : Fin n → EReal) (ho : ∀ l, o l = if l = r then 1 else 0) :
    ∑ l : Fin n, o l * f l = f r := by
  rw [Finset.sum_eq_single r]
  · rw [ho r, if_pos rfl, one_mul]
  · intro l _ hne
    rw [ho l, if_neg hne, zero_mul]
  · intro h
    exact absurd (Finset.mem_univ r) h

/-- Slot `k` and hidden column `h` against weight column `50 k + h`: a bijection of `6 × 50` with `300`. -/
def slotEquiv : Fin 6 × Fin 50 ≃ Fin 300 where
  toFun p := wcol p.1 p.2
  invFun c := (⟨c.val / 50, by omega⟩, ⟨c.val % 50, by omega⟩)
  left_inv p := by
    obtain ⟨k, h⟩ := p
    refine Prod.ext (Fin.ext ?_) (Fin.ext ?_)
    · show (50 * k.val + h.val) / 50 = k.val
      omega
    · show (50 * k.val + h.val) % 50 = h.val
      omega
  right_inv c := by
    refine Fin.ext ?_
    show 50 * (c.val / 50) + c.val % 50 = c.val
    omega

/-- The sum over the 300 columns, slot by slot. -/
theorem sum_cols_eq (f : Fin 300 → EReal) : ∑ c : Fin 300, f c = ∑ k : Fin 6, ∑ h : Fin 50, f (wcol k h) := by
  rw [← Fintype.sum_prod_type' (fun k h => f (wcol k h))]
  exact (Fintype.sum_equiv slotEquiv (fun p => f (wcol p.1 p.2)) f (fun _ => rfl)).symm

/-- The bias and the six slot terms, added one after the other from the bias on. -/
theorem bias_add_six (b : EReal) (d : Fin 6 → EReal) :
    b + d 0 + d 1 + d 2 + d 3 + d 4 + d 5 = b + ∑ k : Fin 6, d k := by
  rw [Fin.sum_univ_six]
  simp only [add_assoc]

end Cert.ParserScore

end
-- ==== Proof.KernelBlockA.lean ====
/-
  The kernel's gather, written as a matrix product, read entry by entry: the `[256, 6, 50]` array the body forms from a point's
  buffer block and position blocks holds, at `(p, k, h)`, column `h` of the buffer row that slot `k`'s position word selects.
  The position word is clamped into `[0, 127]` as a signed integer, compared with a row counter to give a 0/1 matrix, and
  the batched product with that matrix keeps exactly the selected row.
-/
import proofs.«425299_j56281251446796_3_alg».proof.Proof.Gen.KernelIdeal.Skeleton
import proofs.«425299_j56281251446796_3_alg».proof.Proof.Spec
import proofs.«425299_j56281251446796_3_alg».proof.Proof.ScoreAlgebra
import Idealize.ShloMosaic.Lib.Pipeline.Value
import Idealize.ShloMosaic.Lib.ValueIdx
import Idealize.ShloMosaic.PureOps.Ideal.Laws

noncomputable section

namespace Cert.ParserScore

open Idealize.ShloMosaic Idealize.ShloMosaic.ValueIdx Cert.KernelIdeal Cert.KernelIdeal.Gen

/-! ## The clamp of a position word -/

/-- The kernel's clamp of a position word, `min 127 (max 0 w)` on signed 32-bit words, is the word of the row `rowOf w`. -/
theorem clamp_word (w : BitVec 32) :
    IntOp.minsi 127#32 (IntOp.maxsi 0#32 w) = BitVec.ofNat 32 (rowOf w).val := by
  have h0 : (0#32 : BitVec 32).toInt = 0 := by decide
  have h127 : (127#32 : BitVec 32).toInt = 127 := by decide
  have hw := BitVec.toInt_eq_toNat_cond w
  have hlt := w.isLt
  show IntOp.minsi 127#32 (IntOp.maxsi 0#32 w) = BitVec.ofNat 32 (min w.toInt.toNat 127)
  by_cases hneg : w.toInt < 0
  · have e1 : IntOp.maxsi 0#32 w = 0#32 := if_pos (BitVec.slt_iff_toInt_lt.mpr (by rw [h0]; exact hneg))
    have e2 : IntOp.minsi 127#32 0#32 = 0#32 := by decide
    have e : min w.toInt.toNat 127 = 0 := by omega
    rw [e1, e2, e]
  · have e1 : IntOp.maxsi 0#32 w = w :=
      if_neg (fun h => hneg (by have := BitVec.slt_iff_toInt_lt.mp h; rw [h0] at this; exact this))
    rw [e1]
    by_cases hbig : 127 < w.toInt
    · have e2 : IntOp.minsi 127#32 w = 127#32 := if_pos (BitVec.slt_iff_toInt_lt.mpr (by rw [h127]; exact hbig))
      have e : min w.toInt.toNat 127 = 127 := by omega
      rw [e2, e]
    · have e2 : IntOp.minsi 127#32 w = w :=
        if_neg (fun h => hbig (by have := BitVec.slt_iff_toInt_lt.mp h; rw [h127] at this; exact this))
      have e : min w.toInt.toNat 127 = w.toNat := by
        split at hw <;> omega
      rw [e2, e]
      exact BitVec.eq_of_toNat_eq (by rw [BitVec.toNat_ofNat]; exact (Nat.mod_eq_of_lt hlt).symm)

/-! ## The 0/1 selection matrix -/

/-- A one-bit word widened to 32 bits and converted to a float is `1` or `0`. -/
theorem sitofp_bit (b : BitVec 1) :
    FloatOps.sitofp (F := Ideal) .f32 (b.setWidth 32) = if b = 1#1 then (1 : EReal) else 0 := by
  rcases BitVec.eq_zero_or_eq_one b with h | h <;> subst h
  · have e : ((0#1 : BitVec 1).setWidth 32).toInt = 0 := by decide
    show ((((0#1 : BitVec 1).setWidth 32).toInt : ℝ) : EReal) = _
    rw [e, if_neg (by decide)]; simp
  · have e : ((1#1 : BitVec 1).setWidth 32).toInt = 1 := by decide
    show ((((1#1 : BitVec 1).setWidth 32).toInt : ℝ) : EReal) = _
    rw [e, if_pos rfl]; simp

/-- The comparison of the row counter with the clamped position word `c (p, k)`, as a float, at `(p, k, l)`. -/
theorem onehot_apply (c : IVec S256x6 32) (hio : S256x6x128.Iotas .tc 32 [2]) (hs : S256x6.ShapeCasts S256x6x1)
    (hb : S256x6x1.Broadcasts S256x6x128) (hn : 1 < 32) (p : Fin 256) (k : Fin 6) (l : Fin 128) :
    (sitofp .f32 (extui 32 (cmpi .eq (iota .tc S256x6x128 32 [2] hio) (broadcastTo S256x6x128 (shapeCast S256x6x1 c hs) hb)) hn)
        : FVec Ideal S256x6x128 .f32) (ix3 p k l)
      = if BitVec.ofNat 32 l.val = c (ix2 p k) then 1 else 0 := by
  have e1 : iota .tc S256x6x128 32 [2] hio (ix3 p k l) = BitVec.ofNat 32 l.val :=
    iota_single_apply .tc S256x6x128 32 2 hio (ix3 p k l)
  have e2 : broadcastTo S256x6x128 (shapeCast S256x6x1 c hs) hb (ix3 p k l) = c (ix2 p k) := by
    refine (broadcastTo_apply _ hb (ix3 p k l) (ix3 p k (0 : Fin 1)) fun a => ?_).trans ?_
    · match a with
      | ⟨0, _⟩ => rfl
      | ⟨1, _⟩ => rfl
      | ⟨2, _⟩ => rfl
    · exact shapeCast_apply c hs _ (ix2 p k) (by
        rw [Shape.rowMajor_val_three, Shape.rowMajor_val_two]
        show p.val * 6 + k.val = (p.val * 6 + k.val) * 1 + 0
        omega)
  show FloatOps.sitofp (F := Ideal) .f32 ((IntOp.cmpi .eq (iota .tc S256x6x128 32 [2] hio (ix3 p k l))
    (broadcastTo S256x6x128 (shapeCast S256x6x1 c hs) hb (ix3 p k l))).setWidth 32) = _
  rw [e1, e2, sitofp_bit]
  by_cases hc : BitVec.ofNat 32 l.val = c (ix2 p k)
  · rw [if_pos hc, if_pos (IntOp.cmpi_eq.mpr hc)]
  · rw [if_neg hc, if_neg (fun h => hc (IntOp.cmpi_eq.mp h))]

/-! ## The six position words -/

/-- A vector `[256]` viewed as a column `[256, 1]` reads its entry. -/
theorem column_apply (x : IVec S256 32) (hs : S256.ShapeCasts S256x1) (p : Fin 256) (u : Fin 1) :
    shapeCast S256x1 x hs (ix2 p u) = x (ix1 p) :=
  shapeCast_apply x hs _ (ix1 p) (by
    have hu : u.val = 0 := by omega
    rw [Shape.rowMajor_val_two, Shape.rowMajor_val_one]
    show p.val = p.val * 1 + u.val
    omega)

/-- The kernel's `[256, 6]` array of position words (three columns from the buffer position, then the stack positions), at `(p, k)`. -/
theorem idx6_apply (v1 : IVec S256 32) (v2 : IVec S256x3 32) (hs : S256.ShapeCasts S256x1)
    (hc : Shape.Concatenates [S256x1, S256x1, S256x1, S256x3] S256x6 1) (p : Fin 256) (k : Fin 6) :
    concatenate S256x6 1 [⟨S256x1, shapeCast S256x1 v1 hs⟩, ⟨S256x1, shapeCast S256x1 (addi v1 (broadcast S256 1#32)) hs⟩,
      ⟨S256x1, shapeCast S256x1 (addi v1 (broadcast S256 2#32)) hs⟩, ⟨S256x3, v2⟩] hc (ix2 p k) = word6 v1 v2 p k := by
  unfold word6
  by_cases hk3 : k.val < 3
  · rw [dif_pos hk3]
    obtain ⟨kv, hkv⟩ := k
    have hkv3 : kv < 3 := hk3
    interval_cases kv
    · refine (concatenate_apply_piece (t := S256x6) 1 [⟨S256x1, shapeCast S256x1 v1 hs⟩, ⟨S256x1, shapeCast S256x1 (addi v1 (broadcast S256 1#32)) hs⟩, ⟨S256x1, shapeCast S256x1 (addi v1 (broadcast S256 2#32)) hs⟩, ⟨S256x3, v2⟩] hc _ 0 (by show (0 : Nat) < 4; omega) S256x1 _ rfl rfl 0 rfl (ix2 p (0 : Fin 1))
        (fun b => match b with | ⟨0, _⟩ => fun _ => rfl | ⟨1, _⟩ => fun h => absurd rfl h) rfl).trans ?_
      rw [column_apply]
      exact (BitVec.add_zero _).symm
    · refine (concatenate_apply_piece (t := S256x6) 1 [⟨S256x1, shapeCast S256x1 v1 hs⟩, ⟨S256x1, shapeCast S256x1 (addi v1 (broadcast S256 1#32)) hs⟩, ⟨S256x1, shapeCast S256x1 (addi v1 (broadcast S256 2#32)) hs⟩, ⟨S256x3, v2⟩] hc _ 1 (by show (1 : Nat) < 4; omega) S256x1 _ rfl rfl 1 rfl (ix2 p (0 : Fin 1))
        (fun b => match b with | ⟨0, _⟩ => fun _ => rfl | ⟨1, _⟩ => fun h => absurd rfl h) rfl).trans ?_
      rw [column_apply]
      rfl
    · refine (concatenate_apply_piece (t := S256x6) 1 [⟨S256x1, shapeCast S256x1 v1 hs⟩, ⟨S256x1, shapeCast S256x1 (addi v1 (broadcast S256 1#32)) hs⟩, ⟨S256x1, shapeCast S256x1 (addi v1 (broadcast S256 2#32)) hs⟩, ⟨S256x3, v2⟩] hc _ 2 (by show (2 : Nat) < 4; omega) S256x1 _ rfl rfl 2 rfl (ix2 p (0 : Fin 1))
        (fun b => match b with | ⟨0, _⟩ => fun _ => rfl | ⟨1, _⟩ => fun h => absurd rfl h) rfl).trans ?_
      rw [column_apply]
      rfl
  · rw [dif_neg hk3]
    have hk6 := k.isLt
    exact concatenate_apply_piece (t := S256x6) 1 [⟨S256x1, shapeCast S256x1 v1 hs⟩, ⟨S256x1, shapeCast S256x1 (addi v1 (broadcast S256 1#32)) hs⟩, ⟨S256x1, shapeCast S256x1 (addi v1 (broadcast S256 2#32)) hs⟩, ⟨S256x3, v2⟩] hc _ 3 (by show (3 : Nat) < 4; omega) S256x3 v2 rfl rfl 3 rfl (ix2 p ⟨k.val - 3, by omega⟩)
      (fun b => match b with | ⟨0, _⟩ => fun _ => rfl | ⟨1, _⟩ => fun h => absurd rfl h) (by show 3 + (k.val - 3) = k.val; omega)

/-! ## The batched product read at an index -/

theorem lhs_rows_0 (i : S256x6x50.Idx) (q : dot_S256x6x128_S256x128x50_S256x6x50_2_1_1_2_0_0.contr.Idx) :
    (dot_S256x6x128_S256x128x50_S256x6x50_2_1_1_2_0_0.lhsIdx i q 0).val = (i 0).val := by
  unfold DotDims.lhsIdx
  rw [dif_pos (show (0 : Fin S256x6x128.rank) ∈ dot_S256x6x128_S256x128x50_S256x6x50_2_1_1_2_0_0.lhsBatch by decide)]
  rfl
theorem lhs_rows_1 (i : S256x6x50.Idx) (q : dot_S256x6x128_S256x128x50_S256x6x50_2_1_1_2_0_0.contr.Idx) :
    (dot_S256x6x128_S256x128x50_S256x6x50_2_1_1_2_0_0.lhsIdx i q 1).val = (i 1).val := by
  unfold DotDims.lhsIdx
  rw [dif_neg (show ¬(1 : Fin S256x6x128.rank) ∈ dot_S256x6x128_S256x128x50_S256x6x50_2_1_1_2_0_0.lhsBatch by decide), dif_pos (show (1 : Fin S256x6x128.rank) ∈ dot_S256x6x128_S256x128x50_S256x6x50_2_1_1_2_0_0.lhsNonContracting by decide)]
  rfl
theorem lhs_rows_2 (i : S256x6x50.Idx) (q : dot_S256x6x128_S256x128x50_S256x6x50_2_1_1_2_0_0.contr.Idx) :
    (dot_S256x6x128_S256x128x50_S256x6x50_2_1_1_2_0_0.lhsIdx i q 2).val = (q ⟨0, by decide⟩).val :=
  dot_S256x6x128_S256x128x50_S256x6x50_2_1_1_2_0_0.lhsIdx_val_of_single rfl i q
theorem rhs_rows_0 (i : S256x6x50.Idx) (q : dot_S256x6x128_S256x128x50_S256x6x50_2_1_1_2_0_0.contr.Idx) :
    (dot_S256x6x128_S256x128x50_S256x6x50_2_1_1_2_0_0.rhsIdx i q 0).val = (i 0).val := by
  unfold DotDims.rhsIdx
  rw [dif_pos (show (0 : Fin S256x128x50.rank) ∈ dot_S256x6x128_S256x128x50_S256x6x50_2_1_1_2_0_0.rhsBatch by decide)]
  rfl
theorem rhs_rows_1 (i : S256x6x50.Idx) (q : dot_S256x6x128_S256x128x50_S256x6x50_2_1_1_2_0_0.contr.Idx) :
    (dot_S256x6x128_S256x128x50_S256x6x50_2_1_1_2_0_0.rhsIdx i q 1).val = (q ⟨0, by decide⟩).val :=
  dot_S256x6x128_S256x128x50_S256x6x50_2_1_1_2_0_0.rhsIdx_val_of_single rfl i q
theorem rhs_rows_2 (i : S256x6x50.Idx) (q : dot_S256x6x128_S256x128x50_S256x6x50_2_1_1_2_0_0.contr.Idx) :
    (dot_S256x6x128_S256x128x50_S256x6x50_2_1_1_2_0_0.rhsIdx i q 2).val = (i 2).val := by
  unfold DotDims.rhsIdx
  rw [dif_neg (show ¬(2 : Fin S256x128x50.rank) ∈ dot_S256x6x128_S256x128x50_S256x6x50_2_1_1_2_0_0.rhsBatch by decide), dif_pos (show (2 : Fin S256x128x50.rank) ∈ dot_S256x6x128_S256x128x50_S256x6x50_2_1_1_2_0_0.rhsNonContracting by decide)]
  rfl

/-- The batched product `bkl,blh->bkh` into the zero accumulator, at `(p, k, h)`: the sum over the 128 rows `l`. -/
theorem rows_dot_apply (A : FVec Ideal S256x6x128 .f32) (B : FVec Ideal S256x128x50 .f32) (p : Fin 256) (k : Fin 6) (h : Fin 50) :
    matmul dot_S256x6x128_S256x128x50_S256x6x50_2_1_1_2_0_0 none A B (constant S256x6x50 .f32 0x00000000#32) (ix3 p k h)
      = ∑ l : Fin 128, A (ix3 p k l) * B (ix3 p l h) := by
  refine (Ideal.matmul_constant_zero_apply dot_S256x6x128_S256x128x50_S256x6x50_2_1_1_2_0_0 none A B (ix3 p k h)).trans ?_
  rw [← Equiv.sum_comp (ValueIdx.contrEquiv1 dot_S256x6x128_S256x128x50_S256x6x50_2_1_1_2_0_0 128 rfl rfl).symm]
  refine Finset.sum_congr rfl fun l _ => ?_
  have hl := ValueIdx.contrEquiv1_symm_val dot_S256x6x128_S256x128x50_S256x6x50_2_1_1_2_0_0 128 rfl rfl l
  have el : dot_S256x6x128_S256x128x50_S256x6x50_2_1_1_2_0_0.lhsIdx (ix3 p k h) ((ValueIdx.contrEquiv1 dot_S256x6x128_S256x128x50_S256x6x50_2_1_1_2_0_0 128 rfl rfl).symm l) = ix3 p k l := funext fun a => Fin.ext (by
    match a with
    | ⟨0, _⟩ => exact lhs_rows_0 _ _
    | ⟨1, _⟩ => exact lhs_rows_1 _ _
    | ⟨2, _⟩ => exact (lhs_rows_2 _ _).trans hl)
  have er : dot_S256x6x128_S256x128x50_S256x6x50_2_1_1_2_0_0.rhsIdx (ix3 p k h) ((ValueIdx.contrEquiv1 dot_S256x6x128_S256x128x50_S256x6x50_2_1_1_2_0_0 128 rfl rfl).symm l) = ix3 p l h := funext fun a => Fin.ext (by
    match a with
    | ⟨0, _⟩ => exact rhs_rows_0 _ _
    | ⟨1, _⟩ => exact (rhs_rows_1 _ _).trans hl
    | ⟨2, _⟩ => exact rhs_rows_2 _ _)
  rw [el, er]

/-! ## The selected rows -/

/-- The words of two rows below 128 are equal only for equal rows. -/
theorem ofNat_row_inj (l r : Fin 128) : BitVec.ofNat 32 l.val = BitVec.ofNat 32 r.val ↔ l = r := by
  constructor
  · intro h
    have e := congrArg BitVec.toNat h
    have hl := l.isLt
    have hr := r.isLt
    rw [BitVec.toNat_ofNat, BitVec.toNat_ofNat, Nat.mod_eq_of_lt (by omega), Nat.mod_eq_of_lt (by omega)] at e
    exact Fin.ext e
  · intro h; rw [h]

/-- THE GATHER AS A PRODUCT: the kernel's `[256, 6, 50]` array holds, at `(p, k, h)`, the buffer block's row selected by slot `k`'s
    position word, at column `h` — the product with the 0/1 matrix keeps exactly that row. -/
theorem gathered_apply (v0 : Vec Ideal S256x128x50 .f32) (v1 : Vec Ideal S256 .i32) (v2 : Vec Ideal S256x3 .i32)
    (p : Fin 256) (k : Fin 6) (h : Fin 50) :
    k0_pay2 (F := Ideal) v0 v1 v2 (ix3 p k h) = v0 (ix3 p (rowOf (word6 v1 v2 p k)) h) := by
  unfold k0_pay2
  refine (rows_dot_apply _ v0 p k h).trans ?_
  refine sum_indicator_mul (rowOf (word6 v1 v2 p k)) (fun l => _) (fun l => v0 (ix3 p l h)) (fun l => ?_)
  refine (onehot_apply _ _ _ _ _ p k l).trans ?_
  have hc : IntOp.minsi 127#32 (IntOp.maxsi 0#32 (concatenate S256x6 1 [⟨S256x1, shapeCast S256x1 v1 shapeCasts_S256_S256x1⟩, ⟨S256x1, shapeCast S256x1 (addi v1 (broadcast S256 1#32)) shapeCasts_S256_S256x1⟩, ⟨S256x1, shapeCast S256x1 (addi v1 (broadcast S256 2#32)) shapeCasts_S256_S256x1⟩, ⟨S256x3, v2⟩] concatenates_S256x1_S256x1_S256x1_S256x3_S256x6_d1 (ix2 p k)))
      = BitVec.ofNat 32 (rowOf (word6 v1 v2 p k)).val := by
    rw [idx6_apply, clamp_word]
  show (if BitVec.ofNat 32 l.val = IntOp.minsi 127#32 (IntOp.maxsi 0#32 (concatenate S256x6 1 [⟨S256x1, shapeCast S256x1 v1 shapeCasts_S256_S256x1⟩, ⟨S256x1, shapeCast S256x1 (addi v1 (broadcast S256 1#32)) shapeCasts_S256_S256x1⟩, ⟨S256x1, shapeCast S256x1 (addi v1 (broadcast S256 2#32)) shapeCasts_S256_S256x1⟩, ⟨S256x3, v2⟩] concatenates_S256x1_S256x1_S256x1_S256x3_S256x6_d1 (ix2 p k))) then (1 : EReal) else 0) = _
  rw [hc]
  by_cases hl : l = rowOf (word6 v1 v2 p k)
  · rw [if_pos hl, if_pos ((ofNat_row_inj _ _).mpr hl)]
  · rw [if_neg hl, if_neg (fun e => hl ((ofNat_row_inj _ _).mp e))]

end Cert.ParserScore

end
-- ==== Proof.KernelBlock.lean ====
/-
  What one grid point's body leaves in the output block, entry by entry: row `p` of the block, action `j`, holds the score of
  the six rows selected in the point's buffer block by the point's position blocks, against the weight block.
-/
import proofs.«425299_j56281251446796_3_alg».proof.Proof.Gen.KernelIdeal.Frame
import proofs.«425299_j56281251446796_3_alg».proof.Proof.Spec
import proofs.«425299_j56281251446796_3_alg».proof.Proof.ScoreAlgebra
import proofs.«425299_j56281251446796_3_alg».proof.Proof.KernelBlockA
import Idealize.ShloMosaic.Lib.Pipeline.Value
import Idealize.ShloMosaic.Lib.ValueIdx
import Idealize.ShloMosaic.Lib.ValueLayout
import Idealize.ShloMosaic.PureOps.Ideal.Laws

noncomputable section

namespace Cert.ParserScore

open Idealize.ShloMosaic Idealize.ShloMosaic.ValueIdx Cert.KernelIdeal Cert.KernelIdeal.Gen

/-! ## One slot's product read at an index -/

theorem lhs_slot_0 (i : S256x3.Idx) (q : dot_S256x50_S50x3_S256x3_1_0_0_1_n_n.contr.Idx) :
    (dot_S256x50_S50x3_S256x3_1_0_0_1_n_n.lhsIdx i q 0).val = (i 0).val := by
  unfold DotDims.lhsIdx
  rw [dif_neg (show ¬(0 : Fin S256x50.rank) ∈ dot_S256x50_S50x3_S256x3_1_0_0_1_n_n.lhsBatch by decide), dif_pos (show (0 : Fin S256x50.rank) ∈ dot_S256x50_S50x3_S256x3_1_0_0_1_n_n.lhsNonContracting by decide)]
  rfl
theorem lhs_slot_1 (i : S256x3.Idx) (q : dot_S256x50_S50x3_S256x3_1_0_0_1_n_n.contr.Idx) :
    (dot_S256x50_S50x3_S256x3_1_0_0_1_n_n.lhsIdx i q 1).val = (q ⟨0, by decide⟩).val :=
  dot_S256x50_S50x3_S256x3_1_0_0_1_n_n.lhsIdx_val_of_single rfl i q
theorem rhs_slot_0 (i : S256x3.Idx) (q : dot_S256x50_S50x3_S256x3_1_0_0_1_n_n.contr.Idx) :
    (dot_S256x50_S50x3_S256x3_1_0_0_1_n_n.rhsIdx i q 0).val = (q ⟨0, by decide⟩).val :=
  dot_S256x50_S50x3_S256x3_1_0_0_1_n_n.rhsIdx_val_of_single rfl i q
theorem rhs_slot_1 (i : S256x3.Idx) (q : dot_S256x50_S50x3_S256x3_1_0_0_1_n_n.contr.Idx) :
    (dot_S256x50_S50x3_S256x3_1_0_0_1_n_n.rhsIdx i q 1).val = (i 1).val := by
  unfold DotDims.rhsIdx
  rw [dif_neg (show ¬(1 : Fin S50x3.rank) ∈ dot_S256x50_S50x3_S256x3_1_0_0_1_n_n.rhsBatch by decide), dif_pos (show (1 : Fin S50x3.rank) ∈ dot_S256x50_S50x3_S256x3_1_0_0_1_n_n.rhsNonContracting by decide)]
  rfl

/-- One slot's product `[256,50] × [50,3]` into the zero accumulator, at `(p, j)`: the sum over the 50 hidden columns. -/
theorem slot_dot_apply (A : FVec Ideal S256x50 .bf16) (B : FVec Ideal S50x3 .bf16) (p : Fin 256) (j : Fin 3) :
    matmul dot_S256x50_S50x3_S256x3_1_0_0_1_n_n none A B (constant S256x3 .f32 0x00000000#32) (ix2 p j)
      = ∑ h : Fin 50, A (ix2 p h) * B (ix2 h j) := by
  refine (Ideal.matmul_constant_zero_apply dot_S256x50_S50x3_S256x3_1_0_0_1_n_n none A B (ix2 p j)).trans ?_
  rw [← Equiv.sum_comp (ValueIdx.contrEquiv1 dot_S256x50_S50x3_S256x3_1_0_0_1_n_n 50 rfl rfl).symm]
  refine Finset.sum_congr rfl fun h _ => ?_
  have hh := ValueIdx.contrEquiv1_symm_val dot_S256x50_S50x3_S256x3_1_0_0_1_n_n 50 rfl rfl h
  have el : dot_S256x50_S50x3_S256x3_1_0_0_1_n_n.lhsIdx (ix2 p j) ((ValueIdx.contrEquiv1 dot_S256x50_S50x3_S256x3_1_0_0_1_n_n 50 rfl rfl).symm h) = ix2 p h := funext fun a => Fin.ext (by
    match a with
    | ⟨0, _⟩ => exact lhs_slot_0 _ _
    | ⟨1, _⟩ => exact (lhs_slot_1 _ _).trans hh)
  have er : dot_S256x50_S50x3_S256x3_1_0_0_1_n_n.rhsIdx (ix2 p j) ((ValueIdx.contrEquiv1 dot_S256x50_S50x3_S256x3_1_0_0_1_n_n 50 rfl rfl).symm h) = ix2 h j := funext fun a => Fin.ext (by
    match a with
    | ⟨0, _⟩ => exact (rhs_slot_0 _ _).trans hh
    | ⟨1, _⟩ => exact rhs_slot_1 _ _)
  rw [el, er]

/-! ## One slot's contribution to the logit -/

/-- Slot `o`'s product: the `[256, 50]` slice `o` of the selected rows times the `[50, 3]` slice `o` of the weights, at `(p, j)`. -/
theorem slot_apply (o : Nat) (ho : o < 6) (Gv : FVec Ideal S256x6x50 .f32) (Wt : FVec Ideal S6x50x3 .bf16)
    (hg : S256x6x50.Slices ![0, o, 0] S256x1x50) (hgc : S256x1x50.ShapeCasts S256x50) (hb : FTy.bits .bf16 < FTy.bits .f32)
    (hw : S6x50x3.Slices ![o, 0, 0] S1x50x3) (hwc : S1x50x3.ShapeCasts S50x3) (p : Fin 256) (j : Fin 3) :
    matmul dot_S256x50_S50x3_S256x3_1_0_0_1_n_n none (truncf .bf16 (shapeCast S256x50 (extractStridedSlice S256x1x50 ![0, o, 0] Gv hg) hgc) hb)
        (shapeCast S50x3 (extractStridedSlice S1x50x3 ![o, 0, 0] Wt hw) hwc) (constant S256x3 .f32 0x00000000#32) (ix2 p j)
      = ∑ h : Fin 50, Gv (ix3 p ⟨o, ho⟩ h) * Wt (ix3 ⟨o, ho⟩ h j) := by
  refine (slot_dot_apply _ _ p j).trans (Finset.sum_congr rfl fun h _ => ?_)
  have eA : (truncf .bf16 (shapeCast S256x50 (extractStridedSlice S256x1x50 ![0, o, 0] Gv hg) hgc) hb : FVec Ideal S256x50 .bf16) (ix2 p h)
      = Gv (ix3 p ⟨o, ho⟩ h) := by
    show shapeCast S256x50 (extractStridedSlice S256x1x50 ![0, o, 0] Gv hg) hgc (ix2 p h) = _
    refine (shapeCast_apply _ hgc (ix2 p h) (ix3 p (0 : Fin 1) h) ?_).trans ?_
    · rw [Shape.rowMajor_val_three, Shape.rowMajor_val_two]
      show (p.val * 1 + 0) * 50 + h.val = p.val * 50 + h.val
      omega
    · exact slice3_axis1_apply o Gv hg p (0 : Fin 1) h ⟨o, ho⟩ rfl
  have eB : shapeCast S50x3 (extractStridedSlice S1x50x3 ![o, 0, 0] Wt hw) hwc (ix2 h j) = Wt (ix3 ⟨o, ho⟩ h j) := by
    refine (shapeCast_1ab_ab_apply _ hwc h j).trans ?_
    exact extractStridedSlice_apply _ Wt hw (ix3 (0 : Fin 1) h j) (ix3 ⟨o, ho⟩ h j) (fun a => by
      match a with
      | ⟨0, _⟩ => rfl
      | ⟨1, _⟩ => exact (Nat.zero_add _).symm
      | ⟨2, _⟩ => exact (Nat.zero_add _).symm)
  rw [eA, eB]

/-- The weights as the kernel holds them (cast to their own shape, then narrowed) are the weights, entry by entry. -/
theorem weights_apply (v25 : Vec Ideal S6x50x3 .f32) (i : S6x50x3.Idx) : k0_pay3 (F := Ideal) v25 i = v25 i := by
  unfold k0_pay3
  show shapeCast S6x50x3 v25 shapeCasts_S6x50x3_S6x50x3 i = v25 i
  rw [shapeCast_self]

/-- The bias row broadcast over the block's rows. -/
theorem bias_apply (v22 : Vec Ideal S3 .f32) (h1 : S3.ShapeCasts S1x3) (h2 : S1x3.Broadcasts S256x3) (p : Fin 256) (j : Fin 3) :
    broadcastTo S256x3 (shapeCast S1x3 v22 h1) h2 (ix2 p j) = v22 (ix1 j) :=
  (broadcastTo_1b_ab_apply _ h2 p j).trans (shapeCast_a_1a_apply v22 h1 (0 : Fin 1) j)

/-- The bias plus the first two slots' contributions. -/
theorem first_two_apply (v0 : Vec Ideal S256x128x50 .f32) (v1 : Vec Ideal S256 .i32) (v2 : Vec Ideal S256x3 .i32)
    (v22 : Vec Ideal S3 .f32) (v25 : Vec Ideal S6x50x3 .f32) (p : Fin 256) (j : Fin 3) :
    k0_pay4 (F := Ideal) v0 v1 v2 v22 v25 (ix2 p j)
      = v22 (ix1 j) + (∑ h : Fin 50, k0_pay2 (F := Ideal) v0 v1 v2 (ix3 p 0 h) * k0_pay3 (F := Ideal) v25 (ix3 0 h j))
        + (∑ h : Fin 50, k0_pay2 (F := Ideal) v0 v1 v2 (ix3 p 1 h) * k0_pay3 (F := Ideal) v25 (ix3 1 h j)) := by
  unfold k0_pay4
  simp only [addf_apply]
  rw [bias_apply, slot_apply 0 (by decide), slot_apply 1 (by decide)]
  rfl

/-- The exponential of a vector, at an index. -/
theorem exp_apply {s : Shape} {φ : FTy} (x : FVec Ideal s φ) (i : s.Idx) : exp x i = Ideal.exp (x i) := rfl

/-- The last four slots' contributions added to what the first part carried, then the clip, the exponential and the legality factor. -/
theorem last_four_apply (Gv : FVec Ideal S256x6x50 .f32) (Wt : FVec Ideal S6x50x3 .bf16) (v41 : FVec Ideal S256x3 .f32)
    (v75 : Vec Ideal S256x3 .f32) (p : Fin 256) (j : Fin 3) :
    k0_pay1 (F := Ideal) Gv Wt v41 v75 (ix2 p j)
      = Ideal.exp (min hi (max lo (v41 (ix2 p j) + (∑ h : Fin 50, Gv (ix3 p 2 h) * Wt (ix3 2 h j)) + (∑ h : Fin 50, Gv (ix3 p 3 h) * Wt (ix3 3 h j))
          + (∑ h : Fin 50, Gv (ix3 p 4 h) * Wt (ix3 4 h j)) + (∑ h : Fin 50, Gv (ix3 p 5 h) * Wt (ix3 5 h j))))) * v75 (ix2 p j) := by
  unfold k0_pay1
  simp only [mulf_apply, exp_apply, minimumf_apply, maximumf_apply, broadcast_apply, addf_apply]
  rw [slot_apply 2 (by decide), slot_apply 3 (by decide), slot_apply 4 (by decide), slot_apply 5 (by decide)]
  rfl

/-- The output block of a point, at row `p` and action `j`, from the point's input blocks: `x0` the buffer block,
    `x1` / `x2` the two position blocks, `x3` the legality block, `x4` the weights laid out `[slot, hidden, action]`, `x5` the bias. -/
theorem out_block_apply (x0 : Vec Ideal S256x128x50 .f32) (x1 : Vec Ideal S256 .i32) (x2 : Vec Ideal S256x3 .i32)
    (x3 : Vec Ideal S256x3 .f32) (x4 : Vec Ideal S6x50x3 .f32) (x5 : Vec Ideal S3 .f32) (p : Fin 256) (j : Fin 3) :
    out0_6 (F := Ideal) x0 x1 x2 x3 x4 x5 (ix2 p j)
      = score (fun k h => x0 (ix3 p (rowOf (word6 x1 x2 p k)) h)) (fun k h => x4 (ix3 k h j)) (x5 (ix1 j)) (x3 (ix2 p j)) := by
  have hz1 : (![0] : Fin 1 → Nat) = fun _ => 0 := funext fun a => by fin_cases a <;> rfl
  have hz2 : (![0, 0] : Fin 2 → Nat) = fun _ => 0 := funext fun a => by fin_cases a <;> rfl
  have hz3 : (![0, 0, 0] : Fin 3 → Nat) = fun _ => 0 := funext fun a => by fin_cases a <;> rfl
  unfold out0_6
  rw [View.canon_unit_zero hz2]
  simp only [View.ld_unit_zero (S := S256x3) hz2, View.ld_unit_zero (S := S256) hz1, View.ld_unit_zero (S := S3) hz1,
    View.ld_unit_zero (S := S256x128x50) hz3, View.ld_unit_zero (S := S6x50x3) hz3]
  rw [last_four_apply, first_two_apply]
  simp only [gathered_apply, weights_apply]
  unfold score
  exact congrArg (fun t => Ideal.exp (min hi (max lo t)) * x3 (ix2 p j))
    (bias_add_six (x5 (ix1 j)) (fun k => ∑ h : Fin 50, x0 (ix3 p (rowOf (word6 x1 x2 p k)) h) * x4 (ix3 k h j)))

end Cert.ParserScore

end
-- ==== Proof.KernelValue.lean ====
/-
  From the blocks to the whole array. Grid point `t` works on the states `256 t .. 256 t + 255`: its buffer, position and
  legality blocks are those rows of the argument arrays, the weight block is the whole transposed-and-regrouped weight matrix
  (entry `[k, h, j]` is `W j (50 k + h)`) and the bias block the whole bias. So the block a point writes back is that block
  of the result function `G` of the argument arrays, the 32 blocks cover the output array, and the array after the run is `G`.
-/
import proofs.«425299_j56281251446796_3_alg».proof.Proof.Gen.KernelIdeal.Value
import proofs.«425299_j56281251446796_3_alg».proof.Proof.KernelBlock
import proofs.«425299_j56281251446796_3_alg».proof.Proof.Spec
import Idealize.ShloMosaic.Lib.Pipeline.Value
import Idealize.ShloMosaic.Lib.ValueIdx
import Idealize.ShloMosaic.Lib.StableHlo.Run

noncomputable section

namespace Cert.ParserScore

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-- The argument arrays, by their literal types. -/
abbrev bufArr (c : Dev nD) : Vec Ideal S8192x128x50 .f32 := m ((c : Thread nD τ).loc main_arg0)
abbrev wArr (c : Dev nD) : Vec Ideal S3x300 .f32 := m ((c : Thread nD τ).loc main_arg1)
abbrev biasArr (c : Dev nD) : Vec Ideal S3 .f32 := m ((c : Thread nD τ).loc main_arg2)
abbrev legalArr (c : Dev nD) : Vec Ideal S8192x3 .f32 := m ((c : Thread nD τ).loc main_arg3)
abbrev biArr (c : Dev nD) : Vec Ideal S8192 .i32 := m ((c : Thread nD τ).loc main_arg4)
abbrev siArr (c : Dev nD) : Vec Ideal S8192x3 .i32 := m ((c : Thread nD τ).loc main_arg5)

/-- The result function of the argument arrays of core `c`. -/
abbrev Gm (c : Dev nD) : Vec Ideal S8192x3 .f32 :=
  G (bufArr m c) (wArr m c) (biasArr m c) (legalArr m c) (biArr m c) (siArr m c)

/-- The point's input blocks, by their literal types. -/
abbrev bufBlk (c : Dev nD) (t : Fin cfg0.N) : Vec Ideal S256x128x50 .f32 := iblk m c 0 t
abbrev biBlk (c : Dev nD) (t : Fin cfg0.N) : Vec Ideal S256 .i32 := iblk m c 1 t
abbrev siBlk (c : Dev nD) (t : Fin cfg0.N) : Vec Ideal S256x3 .i32 := iblk m c 2 t
abbrev legalBlk (c : Dev nD) (t : Fin cfg0.N) : Vec Ideal S256x3 .f32 := iblk m c 3 t
abbrev wBlk (c : Dev nD) (t : Fin cfg0.N) : Vec Ideal S6x50x3 .f32 := iblk m c 4 t
abbrev biasBlk (c : Dev nD) (t : Fin cfg0.N) : Vec Ideal S3 .f32 := iblk m c 5 t

/-- The printed index maps, decided over the 32 grid points: the batched windows sit at block `t` of the batch axis and at
    block 0 of every other axis; the weight and bias windows at block 0 throughout. -/
theorem idx_facts : ∀ t : Fin cfg0.N,
    win0_0.index t (0 : Fin 3) = t.val ∧ win0_0.index t (1 : Fin 3) = 0 ∧ win0_0.index t (2 : Fin 3) = 0
    ∧ win0_1.index t (0 : Fin 1) = t.val
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = 0 ∧ win0_4.index t (1 : Fin 3) = 0 ∧ win0_4.index t (2 : Fin 3) = 0
    ∧ win0_5.index t (0 : Fin 1) = 0
    ∧ win0_6.index t (0 : Fin 2) = t.val ∧ win0_6.index t (1 : Fin 2) = 0 :=
  (by decide +kernel : ∀ t : Fin grid0.N, _)

/-- State `p` of point `t`'s block is state `256 t + p` of the batch. -/
def stateOf (t : Fin cfg0.N) (p : Fin 256) : Fin 8192 :=
  ⟨256 * t.val + p.val, by have := t.isLt; have : cfg0.N = 32 := N_0; omega⟩

/-- The buffer block of point `t` holds the buffers of its 256 states. -/
theorem bufBlk_apply (c : Dev nD) (t : Fin cfg0.N) (p : Fin 256) (r : Fin 128) (h : Fin 50) :
    bufBlk m c t (ix3 p r h) = bufArr m c (ix3 (stateOf t p) r h) := by
  obtain ⟨e0, e1, e2, -⟩ := idx_facts t
  show V m c main_arg0 (((cfg0.win 0).blk t).view.emb (ix3 p r h)) = _
  rw [V_main_arg0]
  refine congrArg _ (funext fun a => Fin.ext ?_)
  match a with
  | ⟨0, _⟩ => show win0_0.index t (0 : Fin 3) * 256 + 1 * p.val = 256 * t.val + p.val; omega
  | ⟨1, _⟩ => show win0_0.index t (1 : Fin 3) * 128 + 1 * r.val = r.val; omega
  | ⟨2, _⟩ => show win0_0.index t (2 : Fin 3) * 50 + 1 * h.val = h.val; omega

/-- The buffer-position block holds its states' positions. -/
theorem biBlk_apply (c : Dev nD) (t : Fin cfg0.N) (p : Fin 256) :
    biBlk m c t (ix1 p) = biArr m c (ix1 (stateOf t p)) := by
  obtain ⟨-, -, -, e3, -⟩ := idx_facts t
  show V m c main_arg4 (((cfg0.win 1).blk t).view.emb (ix1 p)) = _
  rw [V_main_arg4]
  refine congrArg _ (funext fun a => Fin.ext ?_)
  match a with
  | ⟨0, _⟩ => show win0_1.index t (0 : Fin 1) * 256 + 1 * p.val = 256 * t.val + p.val; omega

/-- The stack-position block holds its states' positions. -/
theorem siBlk_apply (c : Dev nD) (t : Fin cfg0.N) (p : Fin 256) (s : Fin 3) :
    siBlk m c t (ix2 p s) = siArr m c (ix2 (stateOf t p) s) := by
  obtain ⟨-, -, -, -, e4, e5, -⟩ := idx_facts t
  show V m c main_arg5 (((cfg0.win 2).blk t).view.emb (ix2 p s)) = _
  rw [V_main_arg5]
  refine congrArg _ (funext fun a => Fin.ext ?_)
  match a with
  | ⟨0, _⟩ => show win0_2.index t (0 : Fin 2) * 256 + 1 * p.val = 256 * t.val + p.val; omega
  | ⟨1, _⟩ => show win0_2.index t (1 : Fin 2) * 3 + 1 * s.val = s.val; omega

/-- The legality block holds its states' legality rows. -/
theorem legalBlk_apply (c : Dev nD) (t : Fin cfg0.N) (p : Fin 256) (j : Fin 3) :
    legalBlk m c t (ix2 p j) = legalArr m c (ix2 (stateOf t p) j) := by
  obtain ⟨-, -, -, -, -, -, e6, e7, -⟩ := idx_facts t
  show V m c main_arg3 (((cfg0.win 3).blk t).view.emb (ix2 p j)) = _
  rw [V_main_arg3]
  refine congrArg _ (funext fun a => Fin.ext ?_)
  match a with
  | ⟨0, _⟩ => show win0_3.index t (0 : Fin 2) * 256 + 1 * p.val = 256 * t.val + p.val; omega
  | ⟨1, _⟩ => show win0_3.index t (1 : Fin 2) * 3 + 1 * j.val = j.val; omega

/-- The bias block is the whole bias. -/
theorem biasBlk_apply (c : Dev nD) (t : Fin cfg0.N) (j : Fin 3) :
    biasBlk m c t (ix1 j) = biasArr m c (ix1 j) := by
  obtain ⟨-, -, -, -, -, -, -, -, -, -, -, e11, -⟩ := idx_facts t
  show V m c main_arg2 (((cfg0.win 5).blk t).view.emb (ix1 j)) = _
  rw [V_main_arg2]
  refine congrArg _ (funext fun a => Fin.ext ?_)
  match a with
  | ⟨0, _⟩ => show win0_5.index t (0 : Fin 1) * 3 + 1 * j.val = j.val; omega

/-- The weight window's array as the region finds it: the weights transposed to `[300, 3]`, then regrouped `[6, 50, 3]`. -/
theorem wStage (c : Dev nD) : (V m c main_v1 : S6x50x3.Idx → EReal)
    = shapeCast S6x50x3 (transpose S300x3 [1, 0] (wArr m c) transposes_S3x300_S300x3_1_0) shapeCasts_S300x3_S6x50x3 := by
  dsimp only [V, hostOps0]
  after_results
  rfl

/-- The weight block is the whole regrouped matrix: entry `[k, h, j]` is `W j (50 k + h)`. -/
theorem wBlk_apply (c : Dev nD) (t : Fin cfg0.N) (k : Fin 6) (h : Fin 50) (j : Fin 3) :
    wBlk m c t (ix3 k h j) = wArr m c (ix2 j (wcol k h)) := by
  obtain ⟨-, -, -, -, -, -, -, -, e8, e9, e10, -⟩ := idx_facts t
  show V m c main_v1 (((cfg0.win 4).blk t).view.emb (ix3 k h j)) = _
  have he : ((cfg0.win 4).blk t).view.emb (ix3 k h j) = ix3 k h j := funext fun a => Fin.ext (by
    match a with
    | ⟨0, _⟩ => show win0_4.index t (0 : Fin 3) * 6 + 1 * k.val = k.val; omega
    | ⟨1, _⟩ => show win0_4.index t (1 : Fin 3) * 50 + 1 * h.val = h.val; omega
    | ⟨2, _⟩ => show win0_4.index t (2 : Fin 3) * 3 + 1 * j.val = j.val; omega)
  rw [he, wStage]
  rw [shapeCast_apply _ shapeCasts_S300x3_S6x50x3 (ix3 k h j) (ix2 (wcol k h) j)
    (by rewrite [Shape.rowMajor_val_two, Shape.rowMajor_val_three]; show (50 * k.val + h.val) * 3 + j.val = (k.val * 50 + h.val) * 3 + j.val; omega)]
  exact transpose_apply [1, 0] (wArr m c) transposes_S3x300_S300x3_1_0 (ix2 (wcol k h) j) (ix2 j (wcol k h))
    (fun b => match b with | ⟨0, _⟩ => rfl | ⟨1, _⟩ => rfl)

/-- The six position words of state `p` of the block are those of state `256 t + p` of the batch. -/
theorem word6_blk (c : Dev nD) (t : Fin cfg0.N) (p : Fin 256) (k : Fin 6) :
    word6 (biBlk m c t) (siBlk m c t) p k = word6 (biArr m c) (siArr m c) (stateOf t p) k := by
  unfold word6
  split
  · rw [biBlk_apply]
  · rw [siBlk_apply]

/-- WHAT POINT `t` WRITES BACK is block `t` of the result function of the argument arrays. -/
theorem flushed_eq (c : Dev nD) (t : Fin cfg0.N) :
    (dats m 0 c).flushed 6 t = ((cfg0.win 6).blk t).view.read (Elt Ideal) (Gm m c) := by
  rw [Cert.KernelIdeal.Value.flushed6]
  obtain ⟨-, -, -, -, -, -, -, -, -, -, -, -, e12, e13⟩ := idx_facts t
  funext y
  obtain ⟨p, j, rfl⟩ : ∃ (p : Fin 256) (j : Fin 3), y = ix2 p j := ⟨y 0, y 1, eq_ix2 y⟩
  show out0_6 (bufBlk m c t) (biBlk m c t) (siBlk m c t) (legalBlk m c t) (wBlk m c t) (biasBlk m c t) (ix2 p j)
    = Gm m c (((cfg0.win 6).blk t).view.emb (ix2 p j))
  have he : ((cfg0.win 6).blk t).view.emb (ix2 p j) = ix2 (stateOf t p) j := funext fun a => Fin.ext (by
    match a with
    | ⟨0, _⟩ => show win0_6.index t (0 : Fin 2) * 256 + 1 * p.val = 256 * t.val + p.val; omega
    | ⟨1, _⟩ => show win0_6.index t (1 : Fin 2) * 3 + 1 * j.val = j.val; omega)
  rw [he, out_block_apply]
  show score _ _ _ _ = score _ _ _ _
  congr 1
  · funext k h
    rw [bufBlk_apply, word6_blk]
  · funext k h
    exact wBlk_apply m c t k h j
  · exact biasBlk_apply m c t j
  · exact legalBlk_apply m c t p j

/-- An index of the output array is in point `t`'s block iff each coordinate is in the block's range on its axis. -/
theorem mem_blk (t : Fin cfg0.N) (i : S8192x3.Idx) :
    i ∈ ((cfg0.win 6).blk t).view.set ↔ ∀ a : Fin 2, win0_6.index t a * S256x3.size a ≤ (i a).val ∧ (i a).val < win0_6.index t a * S256x3.size a + S256x3.size a := by
  show i ∈ ((View.whole main_v2).slice (win0_6.rect t)).set ↔ _
  rw [View.set_slice_whole, Rect.mem_set_unit]
  exact Iff.rfl

/-- The 32 blocks cover the output array: state `b` is in the block of point `b / 256`. -/
theorem cover (i : S8192x3.Idx) : ∃ t : Fin cfg0.N, (cfg0.win 6).flush t = true ∧ i ∈ ((cfg0.win 6).blk t).view.set := by
  have hi0 : (i 0).val < 8192 := (i 0).isLt
  have hi1 : (i 1).val < 3 := (i 1).isLt
  have hN : cfg0.N = 32 := N_0
  refine ⟨⟨(i 0).val / 256, by omega⟩, flush0_6 _, ?_⟩
  rw [mem_blk]
  obtain ⟨-, -, -, -, -, -, -, -, -, -, -, -, e12, e13⟩ := idx_facts ⟨(i 0).val / 256, by omega⟩
  intro a
  match a with
  | ⟨0, _⟩ => show win0_6.index _ (0 : Fin 2) * 256 ≤ (i 0).val ∧ (i 0).val < win0_6.index _ (0 : Fin 2) * 256 + 256; rw [e12]; show (i 0).val / 256 * 256 ≤ (i 0).val ∧ (i 0).val < (i 0).val / 256 * 256 + 256; omega
  | ⟨1, _⟩ => show win0_6.index _ (1 : Fin 2) * 3 ≤ (i 1).val ∧ (i 1).val < win0_6.index _ (1 : Fin 2) * 3 + 3; rw [e13]; omega

/-- THE OUTPUT ARRAY after the run is the result function of the argument arrays. -/
theorem final (c : Dev nD) : (dats m 0 c).arrAt 6 cfg0.N = Gm m c :=
  (dats m 0 c).arrAt_eq_of_cover 6 (Gm m c) (fun t _ => flushed_eq m c t) cover

/-- The kernel's run: every weakly fair execution ends with the output array at `G` of the arguments, the arguments unchanged. -/
theorem kernel_run : θ_run defs (onTc (τ := τ) (main (F := Ideal))) ⟨m, fun _ => 0, ρ⟩ fun r => ∀ c : Dev nD,
      r.2.mem ((c : Thread nD τ).loc main_v2) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.ParserScore

end
-- ==== Proof.RefStages.lean ====
/-
  The reference program's stages that are read by hand, each at one element.

  The reference selects a row of the buffer by a batched gather: for state `b`, slot `s` and hidden column `h` it reads
  the buffer at `(b, r, h)`, where the row `r` is the position word read signed and clamped into `[0, 127]`
  (`gather_apply`). Around the gather it wraps a negative position by adding 128 and tests the wrapped position against
  `[0, 127]`, the test reduced by "and" over an axis of extent one (`all_unit_axis`); for a position already in
  `[0, 127]` the wrap does not move it and the test passes (`wrap_id`, `in_range_one`). The two takes, each reshaped
  to 150 columns, are laid side by side (`concat_cols_apply`). The three buffer positions are `bi b + k`, `k = 0, 1, 2`,
  which do not wrap and stay in `[0, 127]` when `0 ≤ bi b ≤ 125` (`add_slot_range`).
-/
import proofs.«425299_j56281251446796_3_alg».proof.Proof.Gen.ReferenceIdeal
import proofs.«425299_j56281251446796_3_alg».proof.Proof.Spec
import Idealize.ShloMosaic.Lib.Pipeline.Value
import Idealize.ShloMosaic.Lib.ValueIdx
import Idealize.ShloMosaic.Lib.ReduceAll
import Idealize.ShloMosaic.PureOps.Reduce

noncomputable section

namespace Cert.ParserScore

open Idealize.ShloMosaic Idealize.ShloMosaic.ValueIdx Cert.ReferenceIdeal Cert.ReferenceIdeal.Gen

/-! ## Words: the wrap-around of negatives, the range test, the three buffer slots -/

/-- A position that is not negative is left alone by the wrap-around (add 128 to a negative position). -/
theorem wrap_id (w : BitVec 32) (h0 : 0 ≤ w.toInt) :
    Scalar.select (IntOp.cmpi .slt w 0#32) (IntOp.addi w 128#32) w = w := by
  have hc : ¬ IntOp.cmpi .slt w 0#32 = 1#1 := by
    rw [IntOp.cmpi_slt]
    have : (0#32 : BitVec 32).toInt = 0 := by decide
    omega
  exact if_neg hc

/-- A position in `[0, 127]` passes the range test `0 ≤ w` and `w ≤ 127`. -/
theorem in_range_one (w : BitVec 32) (h0 : 0 ≤ w.toInt) (h1 : w.toInt ≤ 127) :
    IntOp.andi (IntOp.cmpi .sge w 0#32) (IntOp.cmpi .sle w 127#32) = 1#1 := by
  rw [IntOp.andi_eq_one, IntOp.cmpi_sge, IntOp.cmpi_sle]
  have e0 : (0#32 : BitVec 32).toInt = 0 := by decide
  have e1 : (127#32 : BitVec 32).toInt = 127 := by decide
  omega

/-- The host's integer sum of two words is their wrapping sum. -/
theorem addi_word (w v : BitVec 32) : IntOp.addi w v = w + v := rfl

/-- For `0 ≤ w ≤ 125` and `k < 3` the sum `w + k` does not wrap and stays in `[0, 127]`. -/
theorem add_slot_range (w : BitVec 32) (h0 : 0 ≤ w.toInt) (h1 : w.toInt ≤ 125) (k : Fin 3) :
    0 ≤ (IntOp.addi w (BitVec.ofNat 32 k.val)).toInt ∧ (IntOp.addi w (BitVec.ofNat 32 k.val)).toInt ≤ 127 := by
  have hk := k.isLt
  unfold IntOp.addi
  simp only [BitVec.toInt_eq_toNat_cond, BitVec.toNat_add, BitVec.toNat_ofNat] at h0 h1 ⊢
  omega

/-! ## The "all" over an axis of extent one -/

/-- A fold over the one-element range `Fin 1` combines the one term with the initial value. -/
theorem fold_fin_one {α : Type} (op : α → α → α) [Std.Commutative op] [Std.Associative op] (init : α) (f : Fin 1 → α) :
    (Finset.univ : Finset (Fin 1)).fold op init f = op (f 0) init := by
  rw [Finset.univ_unique, Finset.fold_singleton]
  rfl

/-- "and" with the bit 1 is the identity. -/
theorem andi_one (v : BitVec 1) : IntOp.andi v 1#1 = v := by revert v; decide

/-- A reduce by "and" from 1 over the last axis, of extent one, of a `[8192, 3, 1]` mask is the mask's one entry. -/
theorem all_unit_axis (mask : IVec S8192x3x1 1) (b : Fin 8192) (s : Fin 3) :
    Host.reduce IntOp.andi mask (constantI S_ 1 1#1) reducesTo_S8192x3x1_S8192x3_d2 h_S_ (ix2 b s)
      = mask (ix3 b s (0 : Fin 1)) := by
  have hR : S8192x3x1.Reduces [(2 : Fin 3)] S8192x3 := by decide
  rw [Host.reduce_eq_fold_single (a := (2 : Fin 3)) IntOp.andi mask _ _ hR]
  refine (fold_fin_one IntOp.andi (1#1) (fun k : Fin 1 => mask (hR.lift (ix2 b s) k))).trans ?_
  rw [andi_one]
  congr 1
  funext c
  match c with
  | ⟨0, _⟩ => rfl
  | ⟨1, _⟩ => rfl
  | ⟨2, _⟩ => rfl

/-! ## Two arrays of 150 columns side by side -/

/-- The concatenation along the columns of two `[8192, 150]` arrays, at `(b, c)`: the first array at column `c` for
    `c < 150`, the second at column `c - 150` otherwise. -/
theorem concat_cols_apply (u v : Vec Ideal S8192x150 .f32) (b : Fin 8192) (c : Fin 300) :
    concatenate S8192x300 1 [⟨S8192x150, u⟩, ⟨S8192x150, v⟩] concatenates_S8192x150_S8192x150_S8192x300_d1 (ix2 b c)
      = if hc : c.val < 150 then u (ix2 b ⟨c.val, hc⟩) else v (ix2 b ⟨c.val - 150, by omega⟩) := by
  split
  · next hc =>
    refine concatenate_pair_apply_left (1 : Fin 2) u v _ (ix2 b c) rfl (ix2 b ⟨c.val, hc⟩) ?_
    intro a
    match a with
    | ⟨0, _⟩ => rfl
    | ⟨1, _⟩ => rfl
  · next hc =>
    refine concatenate_pair_apply_right (1 : Fin 2) u v _ (ix2 b c) rfl rfl (ix2 b ⟨c.val - 150, by omega⟩) ?_ ?_
    · intro a ha
      match a, ha with
      | ⟨0, _⟩, _ => rfl
      | ⟨1, _⟩, ha => exact absurd rfl ha
    · show c.val - 150 + 150 = c.val
      omega

/-! ## The batched gather of one row per state and slot -/

local notation "takeD" => gather_S8192x128x50_S8192x3x1_S8192x3x50_2_1_0_0_1_2_1150

/-- THE GATHER READ AT `(b, s, h)`: the buffer of state `b` at the row the position word `idx (b, s, 0)` names — the
    word read signed and clamped into `[0, 127]` — and hidden column `h`. Axis 0 is a batching axis (its coordinate
    is `b`, its start 0), axis 1 is the collapsed axis the start index names (slice size 1, so the clamp is to
    `128 - 1`), axis 2 is the offset axis (its start 0, its coordinate `h`). -/
theorem gather_apply (x : Vec Ideal S8192x128x50 .f32) (idx : IVec S8192x3x1 32) (b : Fin 8192) (s : Fin 3) (h : Fin 50) :
    Host.gather gather_S8192x128x50_S8192x3x1_S8192x3x50_2_1_0_0_1_2_1150 x idx (ix3 b s h)
      = x (ix3 b (rowOf (idx (ix3 b s (0 : Fin 1)))) h) := by
  unfold Host.gather
  congr 1
  funext a
  refine Fin.ext ?_
  have m0 : (0 : Fin 3) ∈ (takeD).operandBatchingDims := List.mem_singleton.mpr rfl
  have n1 : (1 : Fin 3) ∉ (takeD).operandBatchingDims := by
    show (1 : Fin 3) ∉ ([0] : List (Fin 3)); decide
  have n2 : (2 : Fin 3) ∉ (takeD).operandBatchingDims := by
    show (2 : Fin 3) ∉ ([0] : List (Fin 3)); decide
  have c1 : (1 : Fin 3) ∈ (takeD).collapsedSliceDims := List.mem_singleton.mpr rfl
  have s1 : (1 : Fin 3) ∈ (takeD).startIndexMap := List.mem_singleton.mpr rfl
  have s2 : (2 : Fin 3) ∉ (takeD).startIndexMap := by
    show (2 : Fin 3) ∉ ([1] : List (Fin 3)); decide
  have k2 : (2 : Fin 3) ∈ (takeD).sKept := (GatherDims.mem_sKept _ _).mpr ⟨by
    show (2 : Fin 3) ∉ ([1] : List (Fin 3)); decide, n2⟩
  match a with
  | ⟨0, _⟩ =>
    show (takeD).start (ix3 b s h) idx 0 + (takeD).batchCoord (ix3 b s h) 0 + (takeD).offCoord (ix3 b s h) 0 = b.val
    rw [GatherDims.start_batching _ _ _ _ m0,
      GatherDims.offCoord_eq_zero _ _ _ (fun hk => ((GatherDims.mem_sKept _ _).mp hk).2 m0)]
    unfold GatherDims.batchCoord
    rw [dif_pos m0]
    simp only [Nat.zero_add, Nat.add_zero]
    rfl
  | ⟨1, _⟩ =>
    show (takeD).start (ix3 b s h) idx 1 + (takeD).batchCoord (ix3 b s h) 1 + (takeD).offCoord (ix3 b s h) 1
      = min (idx (ix3 b s (0 : Fin 1))).toInt.toNat 127
    rw [GatherDims.batchCoord_eq_zero _ _ _ n1,
      GatherDims.offCoord_eq_zero _ _ _ (fun hk => ((GatherDims.mem_sKept _ _).mp hk).1 c1)]
    simp only [Nat.add_zero]
    unfold GatherDims.start
    rw [dif_pos s1]
    have hsi : (takeD).siIdx (ix3 b s h) ⟨List.idxOf (1 : Fin 3) (takeD).startIndexMap,
        List.idxOf_lt_length_iff.2 s1⟩ = ix3 b s (0 : Fin 1) := by
      funext c; refine Fin.ext ?_
      match c with
      | ⟨0, _⟩ => rfl
      | ⟨1, _⟩ => rfl
      | ⟨2, _⟩ => rfl
    rw [hsi]
    rfl
  | ⟨2, _⟩ =>
    show (takeD).start (ix3 b s h) idx 2 + (takeD).batchCoord (ix3 b s h) 2 + (takeD).offCoord (ix3 b s h) 2 = h.val
    rw [GatherDims.batchCoord_eq_zero _ _ _ n2]
    unfold GatherDims.start
    rw [dif_neg s2]
    unfold GatherDims.offCoord
    rw [dif_pos k2]
    simp only [Nat.zero_add, Nat.add_zero]
    rfl

end Cert.ParserScore

end
-- ==== Proof.RefValue.lean ====
/-
  The reference program's result is the specification's score, index by index.

  The reference reads, for state `b`, three rows of the buffer at the positions `bi b + s` (the first take) and three at
  the positions `si (b, s)` (the second take), `s = 0, 1, 2`. Each take wraps a negative position by adding 128, tests the
  wrapped position against `[0, 127]`, gathers the row at the wrapped position clamped into `[0, 127]`, and keeps the
  gathered entry where the test passed. Under the range condition `InRange` every position already lies in `[0, 127]`:
  the wrap does not move it, the test passes, and the take at `(b, s, h)` is the buffer at `(b, rowOf position, h)`
  (`take0_apply`, `take1_apply`). The two takes, reshaped to 150 columns each and laid side by side, hold at column
  `50 k + h` the entry of slot `k`, hidden column `h` (`selected_apply`): slots `k < 3` are the first take's,
  slots `k ≥ 3` the second's, as in the specification's `word6`. The contraction over the 300 columns against the
  transposed weights is then the double sum over slots and hidden columns (`dot_apply`), and the bias, the clip, the
  exponential and the product with the legality entry are read entry by entry (`ref_eq_G`).
-/
import proofs.«425299_j56281251446796_3_alg».proof.Proof.RefRead
import proofs.«425299_j56281251446796_3_alg».proof.Proof.RefStages
import proofs.«425299_j56281251446796_3_alg».proof.Proof.Spec
import proofs.«425299_j56281251446796_3_alg».proof.Proof.ScoreAlgebra
import Idealize.ShloMosaic.Lib.Pipeline.Value
import Idealize.ShloMosaic.Lib.ValueIdx
import Idealize.ShloMosaic.PureOps.Ideal.Laws

noncomputable section

namespace Cert.ParserScore

open Idealize.ShloMosaic Idealize.ShloMosaic.ValueIdx Cert.ReferenceIdeal Cert.ReferenceIdeal.Gen Cert.ReferenceIdeal.ReadP

/-! ## The position words -/

/-- The buffer slots' position word at `(b, s, 0)`: `bi b + s`, the state's buffer index plus the slot number. -/
theorem pos0_apply (x4 : (⟨S8192, .i32⟩ : BufTy).Contents (Elt Ideal)) (b : Fin 8192) (s : Fin 3) :
    val_main_v6 (F := Ideal) x4 (ix3 b s (0 : Fin 1)) = x4 (ix1 b) + BitVec.ofNat 32 s.val := by
  rw [val_main_v6_apply, val_main_v5_apply, val_main_v3_apply, val_main_v0_apply, val_main_v4_apply, val_main_v2_apply,
    val_main_v1_apply]
  have e : idx_main_v0 (idx_main_v3 (idx_main_v6 (ix3 b s (0 : Fin 1)))) = ix1 b :=
    funext fun a => Fin.ext (by match a with | ⟨0, _⟩ => rfl)
  rw [e]
  rfl

/-- The stack slots' position word at `(b, s, 0)`: the state's stack index `si (b, s)`. -/
theorem pos1_apply (x5 : (⟨S8192x3, .i32⟩ : BufTy).Contents (Elt Ideal)) (b : Fin 8192) (s : Fin 3) :
    val_main_v8 (F := Ideal) x5 (ix3 b s (0 : Fin 1)) = x5 (ix2 b s) := by
  rw [val_main_v8_apply]
  have e : idx_main_v8 (ix3 b s (0 : Fin 1)) = ix2 b s :=
    funext fun a => Fin.ext (by match a with | ⟨0, _⟩ => rfl | ⟨1, _⟩ => rfl)
  rw [e]

/-! ## The two takes: the wrap-around leaves the positions, the range test passes, the gather reads the row -/

/-- Under the range condition the buffer slots' wrapped position is the position itself. -/
theorem wrapped0_apply (x4 : (⟨S8192, .i32⟩ : BufTy).Contents (Elt Ideal))
    (hb : ∀ b : Fin 8192, 0 ≤ (x4 (ix1 b)).toInt ∧ (x4 (ix1 b)).toInt ≤ 125) (b : Fin 8192) (s : Fin 3) :
    val_main_call0_v4 (F := Ideal) x4 (ix3 b s (0 : Fin 1)) = x4 (ix1 b) + BitVec.ofNat 32 s.val := by
  rw [val_main_call0_v4_apply, val_main_call0_v1_apply, val_main_call0_v3_apply, val_main_call0_v0_apply,
    val_main_call0_c_apply, val_main_call0_v2_apply, val_main_call0_c_0_apply, pos0_apply]
  have h0 := (add_slot_range _ (hb b).1 (hb b).2 s).1
  rw [addi_word] at h0
  exact wrap_id _ h0

/-- Under the range condition the buffer slots' mask is set everywhere. -/
theorem mask0_apply (x4 : (⟨S8192, .i32⟩ : BufTy).Contents (Elt Ideal))
    (hb : ∀ b : Fin 8192, 0 ≤ (x4 (ix1 b)).toInt ∧ (x4 (ix1 b)).toInt ≤ 125) (b : Fin 8192) (s : Fin 3) (h : Fin 50) :
    val_main_call0_v13 (F := Ideal) x4 (ix3 b s h) = 1#1 := by
  rw [val_main_call0_v13_apply]
  have e : idx_main_call0_v13 (ix3 b s h) = ix2 b s :=
    funext fun a => Fin.ext (by match a with | ⟨0, _⟩ => rfl | ⟨1, _⟩ => rfl)
  rw [e]
  unfold val_main_call0_v11
  refine (all_unit_axis _ b s).trans ?_
  rw [val_main_call0_v10_apply, val_main_call0_v6_apply, val_main_call0_v9_apply, val_main_call0_v5_apply,
    val_main_call0_c_2_apply, val_main_call0_v8_apply, val_main_call0_v7_apply, val_main_call0_c_1_apply,
    wrapped0_apply x4 hb]
  have h01 := add_slot_range _ (hb b).1 (hb b).2 s
  rw [addi_word] at h01
  exact in_range_one _ h01.1 h01.2

/-- THE FIRST TAKE at `(b, s, h)`: the buffer of state `b` at row `rowOf (bi b + s)`, hidden column `h`. -/
theorem take0_apply (x0 : (⟨S8192x128x50, .f32⟩ : BufTy).Contents (Elt Ideal)) (x4 : (⟨S8192, .i32⟩ : BufTy).Contents (Elt Ideal))
    (hb : ∀ b : Fin 8192, 0 ≤ (x4 (ix1 b)).toInt ∧ (x4 (ix1 b)).toInt ≤ 125) (b : Fin 8192) (s : Fin 3) (h : Fin 50) :
    val_main_v7 (F := Ideal) x0 x4 (ix3 b s h) = x0 (ix3 b (rowOf (x4 (ix1 b) + BitVec.ofNat 32 s.val)) h) := by
  rw [val_main_v7_apply, mask0_apply x4 hb, select_one]
  unfold val_main_call0_v12
  rw [gather_apply, wrapped0_apply x4 hb]

/-- Under the range condition the stack slots' wrapped position is the position itself. -/
theorem wrapped1_apply (x5 : (⟨S8192x3, .i32⟩ : BufTy).Contents (Elt Ideal))
    (hs : ∀ (b : Fin 8192) (s : Fin 3), 0 ≤ (x5 (ix2 b s)).toInt ∧ (x5 (ix2 b s)).toInt ≤ 127) (b : Fin 8192) (s : Fin 3) :
    val_main_call1_v4 (F := Ideal) x5 (ix3 b s (0 : Fin 1)) = x5 (ix2 b s) := by
  rw [val_main_call1_v4_apply, val_main_call1_v1_apply, val_main_call1_v3_apply, val_main_call1_v0_apply,
    val_main_call1_c_apply, val_main_call1_v2_apply, val_main_call1_c_0_apply, pos1_apply]
  exact wrap_id _ (hs b s).1

/-- Under the range condition the stack slots' mask is set everywhere. -/
theorem mask1_apply (x5 : (⟨S8192x3, .i32⟩ : BufTy).Contents (Elt Ideal))
    (hs : ∀ (b : Fin 8192) (s : Fin 3), 0 ≤ (x5 (ix2 b s)).toInt ∧ (x5 (ix2 b s)).toInt ≤ 127)
    (b : Fin 8192) (s : Fin 3) (h : Fin 50) :
    val_main_call1_v13 (F := Ideal) x5 (ix3 b s h) = 1#1 := by
  rw [val_main_call1_v13_apply]
  have e : idx_main_call1_v13 (ix3 b s h) = ix2 b s :=
    funext fun a => Fin.ext (by match a with | ⟨0, _⟩ => rfl | ⟨1, _⟩ => rfl)
  rw [e]
  unfold val_main_call1_v11
  refine (all_unit_axis _ b s).trans ?_
  rw [val_main_call1_v10_apply, val_main_call1_v6_apply, val_main_call1_v9_apply, val_main_call1_v5_apply,
    val_main_call1_c_2_apply, val_main_call1_v8_apply, val_main_call1_v7_apply, val_main_call1_c_1_apply,
    wrapped1_apply x5 hs]
  exact in_range_one _ (hs b s).1 (hs b s).2

/-- THE SECOND TAKE at `(b, s, h)`: the buffer of state `b` at row `rowOf (si (b, s))`, hidden column `h`. -/
theorem take1_apply (x0 : (⟨S8192x128x50, .f32⟩ : BufTy).Contents (Elt Ideal)) (x5 : (⟨S8192x3, .i32⟩ : BufTy).Contents (Elt Ideal))
    (hs : ∀ (b : Fin 8192) (s : Fin 3), 0 ≤ (x5 (ix2 b s)).toInt ∧ (x5 (ix2 b s)).toInt ≤ 127)
    (b : Fin 8192) (s : Fin 3) (h : Fin 50) :
    val_main_v9 (F := Ideal) x0 x5 (ix3 b s h) = x0 (ix3 b (rowOf (x5 (ix2 b s))) h) := by
  rw [val_main_v9_apply, mask1_apply x5 hs, select_one]
  unfold val_main_call1_v12
  rw [gather_apply, wrapped1_apply x5 hs]

/-! ## The 300 selected entries of a state, slot by slot -/

/-- The concatenated takes at `(b, 50 k + h)`: the buffer of state `b` at the row slot `k`'s position word selects,
    hidden column `h`. For `k < 3` the column lies in the first take, at `(b, k, h)` of its reshaped rows; otherwise in
    the second, at `(b, k - 3, h)`. -/
theorem selected_apply (x0 : (⟨S8192x128x50, .f32⟩ : BufTy).Contents (Elt Ideal)) (x4 : (⟨S8192, .i32⟩ : BufTy).Contents (Elt Ideal))
    (x5 : (⟨S8192x3, .i32⟩ : BufTy).Contents (Elt Ideal)) (hr : InRange x4 x5) (b : Fin 8192) (k : Fin 6) (h : Fin 50) :
    val_main_v12 (F := Ideal) x0 x4 x5 (ix2 b (wcol k h)) = x0 (ix3 b (rowOf (word6 x4 x5 b k)) h) := by
  have hk6 := k.isLt
  have hh := h.isLt
  have hb := b.isLt
  unfold val_main_v12
  rw [concat_cols_apply]
  by_cases hk : k.val < 3
  · have hc : (wcol k h).val < 150 := by show 50 * k.val + h.val < 150; omega
    rw [dif_pos hc, val_main_v10_apply]
    have e : idx_main_v10 (ix2 b ⟨(wcol k h).val, hc⟩) = ix3 b (⟨k.val, hk⟩ : Fin 3) h :=
      funext fun a => Fin.ext (by
        match a with
        | ⟨0, _⟩ => show (b.val * 150 + (50 * k.val + h.val)) / 150 = b.val; omega
        | ⟨1, _⟩ => show (b.val * 150 + (50 * k.val + h.val)) / 50 % 3 = k.val; omega
        | ⟨2, _⟩ => show (b.val * 150 + (50 * k.val + h.val)) % 50 = h.val; omega)
    rw [e, take0_apply x0 x4 hr.1]
    unfold word6
    rw [dif_pos hk]
  · have hc : ¬ (wcol k h).val < 150 := by show ¬ 50 * k.val + h.val < 150; omega
    rw [dif_neg hc, val_main_v11_apply]
    have e : idx_main_v11 (ix2 b ⟨(wcol k h).val - 150, by have : (wcol k h).val < 300 := (wcol k h).isLt; omega⟩)
        = ix3 b (⟨k.val - 3, by omega⟩ : Fin 3) h :=
      funext fun a => Fin.ext (by
        match a with
        | ⟨0, _⟩ => show (b.val * 150 + (50 * k.val + h.val - 150)) / 150 = b.val; omega
        | ⟨1, _⟩ => show (b.val * 150 + (50 * k.val + h.val - 150)) / 50 % 3 = k.val - 3; omega
        | ⟨2, _⟩ => show (b.val * 150 + (50 * k.val + h.val - 150)) % 50 = h.val; omega)
    rw [e, take1_apply x0 x5 hr.2]
    unfold word6
    rw [dif_neg hk]

/-! ## The logit and the score -/

/-- The contraction over the 300 columns at `(b, j)`, slot by slot: the six selected rows against the weight columns
    `50 k + h` of action `j`. -/
theorem dot_apply (x0 : (⟨S8192x128x50, .f32⟩ : BufTy).Contents (Elt Ideal)) (x1 : (⟨S3x300, .f32⟩ : BufTy).Contents (Elt Ideal))
    (x4 : (⟨S8192, .i32⟩ : BufTy).Contents (Elt Ideal)) (x5 : (⟨S8192x3, .i32⟩ : BufTy).Contents (Elt Ideal))
    (hr : InRange x4 x5) (b : Fin 8192) (j : Fin 3) :
    val_main_v14 (F := Ideal) x0 x1 x4 x5 (ix2 b j)
      = ∑ k : Fin 6, ∑ h : Fin 50, x0 (ix3 b (rowOf (word6 x4 x5 b k)) h) * x1 (ix2 j (wcol k h)) := by
  rw [val_main_v14_apply]
  refine (sum_cols_eq _).trans ?_
  refine Finset.sum_congr rfl fun k _ => Finset.sum_congr rfl fun h _ => ?_
  have el : lidx_main_v14 (ix2 b j) (wcol k h) = ix2 b (wcol k h) :=
    funext fun a => Fin.ext (by match a with | ⟨0, _⟩ => rfl | ⟨1, _⟩ => rfl)
  have er : idx_main_v13 (ridx_main_v14 (ix2 b j) (wcol k h)) = ix2 j (wcol k h) :=
    funext fun a => Fin.ext (by match a with | ⟨0, _⟩ => rfl | ⟨1, _⟩ => rfl)
  rw [el, val_main_v13_apply, er, selected_apply x0 x4 x5 hr]

/-- THE REFERENCE IS `G`: under the range condition the reference program's result is the score of the specification,
    index by index. The host adds the bias after the contraction; the specification before it. -/
theorem ref_eq_G (x0 : (⟨S8192x128x50, .f32⟩ : BufTy).Contents (Elt Ideal)) (x1 : (⟨S3x300, .f32⟩ : BufTy).Contents (Elt Ideal))
    (x2 : (⟨S3, .f32⟩ : BufTy).Contents (Elt Ideal)) (x3 : (⟨S8192x3, .f32⟩ : BufTy).Contents (Elt Ideal))
    (x4 : (⟨S8192, .i32⟩ : BufTy).Contents (Elt Ideal)) (x5 : (⟨S8192x3, .i32⟩ : BufTy).Contents (Elt Ideal))
    (hr : InRange x4 x5) :
    Cert.ReferenceIdeal.ReadP.val_main_v20 (F := Ideal) x0 x1 x2 x3 x4 x5 = G x0 x1 x2 x3 x4 x5 := by
  funext i
  obtain ⟨b, j, rfl⟩ : ∃ (b : Fin 8192) (j : Fin 3), i = ix2 b j := ⟨i 0, i 1, eq_ix2 i⟩
  rw [val_main_v20_apply, val_main_v19_apply, val_main_v18_apply, val_main_call2_v4_apply, val_main_call2_v3_apply,
    val_main_cst_0_apply, val_main_call2_v2_apply, val_main_call2_v1_apply, val_main_call2_v0_apply, val_main_cst_apply,
    val_main_v17_apply, val_main_v16_apply, val_main_v15_apply, dot_apply x0 x1 x4 x5 hr]
  have eb : idx_main_v15 (idx_main_v16 (ix2 b j)) = ix1 j :=
    funext fun a => Fin.ext (by match a with | ⟨0, _⟩ => rfl)
  rw [eb]
  simp only [Ideal.mulf_def, Ideal.hostUnary_exp_def, Ideal.minimumf_def, Ideal.maximumf_def, Ideal.addf_def, Ideal.ofBits_def]
  rw [add_comm]
  rfl

end Cert.ParserScore

end
-- ==== Proof.lean ====
/-
  The certificate's five claims, assembled.

  The claim is stated for positions that are rows of the buffer (`0 ≤ buffer_index ≤ 125`, `0 ≤ stack_indexes ≤ 127`): there the
  reference's take neither wraps a position round nor masks it out. Both idealized programs then end with the same array:
  for state `b` and action `j`, `exp (min 10 (max (-10^6) (bias j + Σ over the six selected rows k and hidden columns h of
  buffer b (row k) h · W j (50 k + h)))) · legal b j` (`Cert.ParserScore.G`). The kernel reaches it block by block (a 0/1 matrix
  product selects each row; six small products against the regrouped weights are added to the bias one after the other); the
  reference by two takes, a concatenation and one 300-column product. The three frames are the generated frame runs and the
  reference's run; the idealization rewrote nothing, so `preserves` has nothing to state.
-/
import proofs.«425299_j56281251446796_3_alg».proof.Defs
import proofs.«425299_j56281251446796_3_alg».proof.Proof.Gen.Kernel
import proofs.«425299_j56281251446796_3_alg».proof.Proof.Gen.Kernel.Frame
import proofs.«425299_j56281251446796_3_alg».proof.Proof.Gen.KernelIdeal
import proofs.«425299_j56281251446796_3_alg».proof.Proof.Gen.KernelIdeal.Frame
import proofs.«425299_j56281251446796_3_alg».proof.Proof.Gen.KernelIdeal.Value
import proofs.«425299_j56281251446796_3_alg».proof.Proof.Gen.ReferenceIdeal
import proofs.«425299_j56281251446796_3_alg».proof.Proof.Gen.Pre_finite_inputs
import proofs.«425299_j56281251446796_3_alg».proof.Proof.RefRun
import proofs.«425299_j56281251446796_3_alg».proof.Proof.RefRead
import proofs.«425299_j56281251446796_3_alg».proof.Proof.Spec
import proofs.«425299_j56281251446796_3_alg».proof.Proof.PreDecode
import proofs.«425299_j56281251446796_3_alg».proof.Proof.KernelValue
import proofs.«425299_j56281251446796_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were: its generated frame run. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both idealized programs end at the score function `G` of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ParserScore.Gm m c, Cert.ParserScore.kernel_run m ρ, ?_⟩
  refine (θ_run Cert.ReferenceIdeal.defs _ _).mono (fun _ h c => ⟨(h c).1.trans ?_, (h c).2⟩)
    (Cert.ReferenceIdeal.ValueP.run (F := Ideal) m' ρ')
  have hr := Cert.ParserScore.inRange_of_pre (F := Ideal) _ _ _ _ _ _ (hpre c)
  obtain ⟨a0, a1, a2, a3, a4, a5⟩ := hagree c
  rw [Cert.ReferenceIdeal.ReadP.val_main_v20_eq, a0, a1, a2, a3, a4, a5]
  exact Cert.ParserScore.ref_eq_G _ _ _ _ _ _ hr

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
